-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S3x128 .f32) (main_arg6 : FVec F S128x40 .f32) (main_arg7 : FVec F S40 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S3x128x128 .f32) (main_arg3 : FVec F S3x128 .f32) (main_arg4 : FVec F S3x128x128 .f32) (main_arg5 : FVec F S3x128 .f32) (main_arg6 : FVec F S128x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2000x128 : Shape := ⟨2, ![2000, 128]⟩
abbrev S100000x40 : Shape := ⟨2, ![100000, 40]⟩
abbrev S2000x40 : Shape := ⟨2, ![2000, 40]⟩
abbrev S1x40 : Shape := ⟨2, ![1, 40]⟩

abbrev nBuf : Space → Nat
  | .hbm => 79
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S3x128x128, .f32⟩
  | .hbm, ⟨3, _⟩ => ⟨S3x128, .f32⟩
  | .hbm, ⟨4, _⟩ => ⟨S3x128x128, .f32⟩
  | .hbm, ⟨5, _⟩ => ⟨S3x128, .f32⟩
  | .hbm, ⟨6, _⟩ => ⟨S128x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128x128, .f32⟩
  | .hbm, ⟨26, _⟩ => ⟨S128x128, .f32⟩
  | .hbm, ⟨27, _⟩ => ⟨S1x128, .f32⟩
  | .hbm, ⟨28, _⟩ => ⟨S128, .f32⟩
  | .hbm, ⟨29, _⟩ => ⟨S1x128x128, .f32⟩
  | .hbm, ⟨30, _⟩ => ⟨S128x128, .f32⟩
  | .hbm, ⟨31, _⟩ => ⟨S1x128, .f32⟩
  | .hbm, ⟨32, _⟩ => ⟨S128, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S1x128x128, .f32⟩
  | .hbm, ⟨48, _⟩ => ⟨S128x128, .f32⟩
  | .hbm, ⟨49, _⟩ => ⟨S1x128, .f32⟩
  | .hbm, ⟨50, _⟩ => ⟨S128, .f32⟩
  | .hbm, ⟨51, _⟩ => ⟨S1x128x128, .f32⟩
  | .hbm, ⟨52, _⟩ => ⟨S128x128, .f32⟩
  | .hbm, ⟨53, _⟩ => ⟨S1x128, .f32⟩
  | .hbm, ⟨54, _⟩ => ⟨S128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S1x128x128, .f32⟩
  | .hbm, ⟨70, _⟩ => ⟨S128x128, .f32⟩
  | .hbm, ⟨71, _⟩ => ⟨S1x128, .f32⟩
  | .hbm, ⟨72, _⟩ => ⟨S128, .f32⟩
  | .hbm, ⟨73, _⟩ => ⟨S1x128x128, .f32⟩
  | .hbm, ⟨74, _⟩ => ⟨S128x128, .f32⟩
  | .hbm, ⟨75, _⟩ => ⟨S1x128, .f32⟩
  | .hbm, ⟨76, _⟩ => ⟨S128, .f32⟩
  | .hbm, ⟨77, _⟩ => ⟨S100000x128, .f32⟩
  | .hbm, ⟨78, _⟩ => ⟨S100000x40, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S128, .f32⟩
  | .local _ .vmem, ⟨16, _⟩ => ⟨S128x128, .f32⟩
  | .local _ .vmem, ⟨17, _⟩ => ⟨S128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S128, .f32⟩
  | .local _ .vmem, ⟨26, _⟩ => ⟨S128x128, .f32⟩
  | .local _ .vmem, ⟨27, _⟩ => ⟨S128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S128x40, .f32⟩
  | .local _ .vmem, ⟨33, _⟩ => ⟨S40, .f32⟩
  | .local _ .vmem, ⟨34, _⟩ => ⟨S2000x40, .f32⟩
  | .local _ .vmem, ⟨35, _⟩ => ⟨S2000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_1 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c_4 : Ref sig .tc := ⟨.hbm, 56, rfl⟩
abbrev main_v42 : Ref sig .tc := ⟨.hbm, 57, rfl⟩
abbrev main_v43 : Ref sig .tc := ⟨.hbm, 58, rfl⟩
abbrev main_c_5 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_6 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg3_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem3_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S2000x128 : S1x128.Broadcasts S2000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  inb_S128x40_S128x40_0_0 : ∀ a, (![0, 0] : Fin 2 → Nat) a + S128x40.size a ≤ S128x40.size a
  h_S128x40 : 0 < S128x40.numel
  inb_S40_S40_0 : ∀ a, (![0] : Fin 1 → Nat) a + S40.size a ≤ S40.size a
  h_S40 : 0 < S40.numel
  shapeCasts_S40_S1x40 : S40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x40.size a ≤ S128x40.size a
  hwx3_1 : ∀ i : grid3.Coords, EltTy.bits .f32 = 32 ∨ (Rect.block (s := S128x40) S128x40.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S40.size a ≤ S40.size a
  hwx3_2 : ∀ i : grid3.Coords, EltTy.bits .f32 = 32 ∨ (Rect.block (s := S40) S40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x40.size a ≤ S100000x40.size a
  hwx3_3 : ∀ i : grid3.Coords, EltTy.bits .f32 = 32 ∨ (Rect.block (s := S100000x40) S2000x40.size (cc3_transform_3 i) (hinb3_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_v13) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v32) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v51) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v60) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v60) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S2000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S100000x40 : Shape := ⟨2, ![100000, 40]⟩
abbrev S1x40 : Shape := ⟨2, ![1, 40]⟩

abbrev nBuf : Space → Nat
  | .hbm => 124
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S3x128x128, .f32⟩
  | .hbm, ⟨3, _⟩ => ⟨S3x128, .f32⟩
  | .hbm, ⟨4, _⟩ => ⟨S3x128x128, .f32⟩
  | .hbm, ⟨5, _⟩ => ⟨S3x128, .f32⟩
  | .hbm, ⟨6, _⟩ => ⟨S128x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S100000x128, .f32⟩
  | .hbm, ⟨26, _⟩ => ⟨S1x128x128, .f32⟩
  | .hbm, ⟨27, _⟩ => ⟨S128x128, .f32⟩
  | .hbm, ⟨28, _⟩ => ⟨S100000x128, .f32⟩
  | .hbm, ⟨29, _⟩ => ⟨S1x128, .f32⟩
  | .hbm, ⟨30, _⟩ => ⟨S128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S100000x128, .f32⟩
  | .hbm, ⟨36, _⟩ => ⟨S100000x128, .f32⟩
  | .hbm, ⟨37, _⟩ => ⟨S1x128x128, .f32⟩
  | .hbm, ⟨38, _⟩ => ⟨S128x128, .f32⟩
  | .hbm, ⟨39, _⟩ => ⟨S100000x128, .f32⟩
  | .hbm, ⟨40, _⟩ => ⟨S1x128, .f32⟩
  | .hbm, ⟨41, _⟩ => ⟨S128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S100000x128, .f32⟩
  | .hbm, ⟨62, _⟩ => ⟨S1x128x128, .f32⟩
  | .hbm, ⟨63, _⟩ => ⟨S128x128, .f32⟩
  | .hbm, ⟨64, _⟩ => ⟨S100000x128, .f32⟩
  | .hbm, ⟨65, _⟩ => ⟨S1x128, .f32⟩
  | .hbm, ⟨66, _⟩ => ⟨S128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S1x128x128, .f32⟩
  | .hbm, ⟨74, _⟩ => ⟨S128x128, .f32⟩
  | .hbm, ⟨75, _⟩ => ⟨S100000x128, .f32⟩
  | .hbm, ⟨76, _⟩ => ⟨S1x128, .f32⟩
  | .hbm, ⟨77, _⟩ => ⟨S128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S100000x128, .f32⟩
  | .hbm, ⟨83, _⟩ => ⟨S100000x128, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x128, .f32⟩
  | .hbm, ⟨93, _⟩ => ⟨S_, .f32⟩
  | .hbm, ⟨94, _⟩ => ⟨S100000x128, .f32⟩
  | .hbm, ⟨95, _⟩ => ⟨S1600000x1, .i32⟩
  | .hbm, ⟨96, _⟩ => ⟨S100000x128, .f32⟩
  | .hbm, ⟨97, _⟩ => ⟨S100000x128, .f32⟩
  | .hbm, ⟨98, _⟩ => ⟨S1x128x128, .f32⟩
  | .hbm, ⟨99, _⟩ => ⟨S128x128, .f32⟩
  | .hbm, ⟨100, _⟩ => ⟨S100000x128, .f32⟩
  | .hbm, ⟨101, _⟩ => ⟨S1x128, .f32⟩
  | .hbm, ⟨102, _⟩ => ⟨S128, .f32⟩
  | .hbm, ⟨103, _⟩ => ⟨S1x128, .f32⟩
  | .hbm, ⟨104, _⟩ => ⟨S100000x128, .f32⟩
  | .hbm, ⟨105, _⟩ => ⟨S100000x128, .f32⟩
  | .hbm, ⟨106, _⟩ => ⟨S_, .f32⟩
  | .hbm, ⟨107, _⟩ => ⟨S100000x128, .f32⟩
  | .hbm, ⟨108, _⟩ => ⟨S100000x128, .f32⟩
  | .hbm, ⟨109, _⟩ => ⟨S1x128x128, .f32⟩
  | .hbm, ⟨110, _⟩ => ⟨S128x128, .f32⟩
  | .hbm, ⟨111, _⟩ => ⟨S100000x128, .f32⟩
  | .hbm, ⟨112, _⟩ => ⟨S1x128, .f32⟩
  | .hbm, ⟨113, _⟩ => ⟨S128, .f32⟩
  | .hbm, ⟨114, _⟩ => ⟨S1x128, .f32⟩
  | .hbm, ⟨115, _⟩ => ⟨S100000x128, .f32⟩
  | .hbm, ⟨116, _⟩ => ⟨S100000x128, .f32⟩
  | .hbm, ⟨117, _⟩ => ⟨S_, .f32⟩
  | .hbm, ⟨118, _⟩ => ⟨S100000x128, .f32⟩
  | .hbm, ⟨119, _⟩ => ⟨S100000x128, .f32⟩
  | .hbm, ⟨120, _⟩ => ⟨S100000x40, .f32⟩
  | .hbm, ⟨121, _⟩ => ⟨S1x40, .f32⟩
  | .hbm, ⟨122, _⟩ => ⟨S100000x40, .f32⟩
  | .hbm, ⟨123, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call1_cst : Ref sig .tc := ⟨.hbm, 45, rfl⟩
abbrev main_call1_v0 : Ref sig .tc := ⟨.hbm, 46, rfl⟩
abbrev main_v32 : Ref sig .tc := ⟨.hbm, 47, rfl⟩
abbrev main_c_1 : Ref sig .tc := ⟨.hbm, 48, rfl⟩
abbrev main_v33 : Ref sig .tc := ⟨.hbm, 49, rfl⟩
abbrev main_v34 : Ref sig .tc := ⟨.hbm, 50, rfl⟩
abbrev main_c_2 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_3 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_call2_cst : Ref sig .tc := ⟨.hbm, 70, rfl⟩
abbrev main_call2_v0 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_call3_cst : Ref sig .tc := ⟨.hbm, 81, rfl⟩
abbrev main_call3_v0 : Ref sig .tc := ⟨.hbm, 82, rfl⟩
abbrev main_v61 : Ref sig .tc := ⟨.hbm, 83, rfl⟩
abbrev main_c_4 : Ref sig .tc := ⟨.hbm, 84, rfl⟩
abbrev main_v62 : Ref sig .tc := ⟨.hbm, 85, rfl⟩
abbrev main_v63 : Ref sig .tc := ⟨.hbm, 86, rfl⟩
abbrev main_c_5 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_6 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_call4_cst : Ref sig .tc := ⟨.hbm, 106, rfl⟩
abbrev main_call4_v0 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_call5_cst : Ref sig .tc := ⟨.hbm, 117, rfl⟩
abbrev main_call5_v0 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.Spec.lean ====
/-
  The graph-isomorphism network's layer and its final projection, entry by entry, over the extended reals.

  A layer takes the neighbour sums `A` and the node features `X` (both `n × d`) to
  `relu (relu ((A + X) · W₁ + b₁) · W₂ + b₂)`, where `relu z = max z 0` and `L · W + b` at row `p`, column `q` is
  `∑ k, L (p, k) · W (k, q) + b q`. The projection is one more `L · W + b`.

  Every entry of a row of the result depends on that row of `A` and `X` only: two pairs of arrays that agree on
  a row give the same row (`affine_rows`, `ginLayer_rows`). This is what lets a block of rows be computed from the
  block alone.
-/
import Idealize.ShloMosaic.PureOps.Ideal
import Idealize.ShloMosaic.Lib.ValueIdx

noncomputable section

namespace Cert.Gin

open Idealize.ShloMosaic Idealize.ShloMosaic.ValueIdx
open scoped BigOperators

variable {n n' d e f : Nat}

/-- `L · W + b` at row `p`, column `q`. -/
def affineAt (L : (⟨2, ![n, d]⟩ : Shape).Idx → EReal) (W : (⟨2, ![d, e]⟩ : Shape).Idx → EReal)
    (b : (⟨1, ![e]⟩ : Shape).Idx → EReal) (p : Fin n) (q : Fin e) : EReal :=
  (∑ k : Fin d, L (ix2 p k) * W (ix2 k q)) + b (ix1 q)

/-- `L · W + b`, the whole `n × e` array. -/
def affine (L : (⟨2, ![n, d]⟩ : Shape).Idx → EReal) (W : (⟨2, ![d, e]⟩ : Shape).Idx → EReal)
    (b : (⟨1, ![e]⟩ : Shape).Idx → EReal) : (⟨2, ![n, e]⟩ : Shape).Idx → EReal :=
  fun i => affineAt L W b (i 0) (i 1)

theorem affine_apply (L : (⟨2, ![n, d]⟩ : Shape).Idx → EReal) (W : (⟨2, ![d, e]⟩ : Shape).Idx → EReal)
    (b : (⟨1, ![e]⟩ : Shape).Idx → EReal) (p : Fin n) (q : Fin e) : affine L W b (ix2 p q) = affineAt L W b p q := rfl

/-- `max · 0`, entry by entry. -/
def relu (x : (⟨2, ![n, e]⟩ : Shape).Idx → EReal) : (⟨2, ![n, e]⟩ : Shape).Idx → EReal := fun i => max (x i) 0

theorem relu_apply (x : (⟨2, ![n, e]⟩ : Shape).Idx → EReal) (i : (⟨2, ![n, e]⟩ : Shape).Idx) : relu x i = max (x i) 0 := rfl

/-- The sum of two arrays, entry by entry. -/
def plus (A X : (⟨2, ![n, d]⟩ : Shape).Idx → EReal) : (⟨2, ![n, d]⟩ : Shape).Idx → EReal := fun i => A i + X i

theorem plus_apply (A X : (⟨2, ![n, d]⟩ : Shape).Idx → EReal) (i : (⟨2, ![n, d]⟩ : Shape).Idx) : plus A X i = A i + X i := rfl

/-- One layer: `relu (relu ((A + X) · W₁ + b₁) · W₂ + b₂)`. -/
def ginLayer (A X : (⟨2, ![n, d]⟩ : Shape).Idx → EReal) (W1 : (⟨2, ![d, e]⟩ : Shape).Idx → EReal)
    (b1 : (⟨1, ![e]⟩ : Shape).Idx → EReal) (W2 : (⟨2, ![e, f]⟩ : Shape).Idx → EReal) (b2 : (⟨1, ![f]⟩ : Shape).Idx → EReal) :
    (⟨2, ![n, f]⟩ : Shape).Idx → EReal :=
  relu (affine (relu (affine (plus A X) W1 b1)) W2 b2)

/-- Row `p` of `L · W + b` is row `p'` of `L' · W + b` when row `p` of `L` is row `p'` of `L'`. -/
theorem affine_rows (L : (⟨2, ![n, d]⟩ : Shape).Idx → EReal) (L' : (⟨2, ![n', d]⟩ : Shape).Idx → EReal)
    (W : (⟨2, ![d, e]⟩ : Shape).Idx → EReal) (b : (⟨1, ![e]⟩ : Shape).Idx → EReal) (p : Fin n) (p' : Fin n') (q : Fin e)
    (h : ∀ k : Fin d, L (ix2 p k) = L' (ix2 p' k)) : affine L W b (ix2 p q) = affine L' W b (ix2 p' q) := by
  rw [affine_apply, affine_apply]
  unfold affineAt
  refine congrArg (· + b (ix1 q)) (Finset.sum_congr rfl fun k _ => ?_)
  rw [h k]

/-- Row `p` of a layer's result is row `p'` of the layer's result on arrays whose row `p'` is row `p` of the given ones. -/
theorem ginLayer_rows (A X : (⟨2, ![n, d]⟩ : Shape).Idx → EReal) (A' X' : (⟨2, ![n', d]⟩ : Shape).Idx → EReal)
    (W1 : (⟨2, ![d, e]⟩ : Shape).Idx → EReal) (b1 : (⟨1, ![e]⟩ : Shape).Idx → EReal)
    (W2 : (⟨2, ![e, f]⟩ : Shape).Idx → EReal) (b2 : (⟨1, ![f]⟩ : Shape).Idx → EReal) (p : Fin n) (p' : Fin n') (q : Fin f)
    (hA : ∀ k : Fin d, A (ix2 p k) = A' (ix2 p' k)) (hX : ∀ k : Fin d, X (ix2 p k) = X' (ix2 p' k)) :
    ginLayer A X W1 b1 W2 b2 (ix2 p q) = ginLayer A' X' W1 b1 W2 b2 (ix2 p' q) := by
  unfold ginLayer
  rw [relu_apply, relu_apply]
  refine congrArg (max · 0) (affine_rows _ _ W2 b2 p p' q fun k => ?_)
  rw [relu_apply, relu_apply]
  refine congrArg (max · 0) (affine_rows _ _ W1 b1 p p' k fun j => ?_)
  rw [plus_apply, plus_apply, hA j, hX j]

end Cert.Gin

end
-- ==== Proof.KDefs.lean ====
/-
  The network as one function of the program's eight arguments.

  The neighbour sum `agg E X` gathers, for every edge, the source node's feature row (a negative source index is
  first moved up by the number of nodes) and adds it into the destination node's row of an array of zeros; it is kept
  as ONE function of the edge list and the features, never opened. Layer `l` uses slice `l` of each stacked weight
  and bias argument. The result is the projection of the third layer's output.
-/
import proofs.«125752_j1005022347909_1_alg».proof.KernelIdeal
import proofs.«125752_j1005022347909_1_alg».proof.Proof.Spec

noncomputable section

namespace Cert.KernelIdeal.Net

open Cert.KernelIdeal Idealize.ShloMosaic

variable [Cert.KernelIdeal.Facts]
open Cert.KernelIdeal.Facts₀ Cert.KernelIdeal.Facts
variable {F : FTy → Type} [FloatOps F]

/-- Row 0 of the edge list: the source node of every edge. -/
def srcRow (E : (⟨S2x1600000, .i32⟩ : BufTy).Contents (Elt F)) : (⟨S1600000, .i32⟩ : BufTy).Contents (Elt F) :=
  shapeCast S1600000 (extractStridedSlice S1x1600000 ![0, 0] E slices_S2x1600000_S1x1600000_0_0) shapeCasts_S1x1600000_S1600000

/-- Row 1 of the edge list: the destination node of every edge. -/
def dstRow (E : (⟨S2x1600000, .i32⟩ : BufTy).Contents (Elt F)) : (⟨S1600000, .i32⟩ : BufTy).Contents (Elt F) :=
  shapeCast S1600000 (extractStridedSlice S1x1600000 ![1, 0] E slices_S2x1600000_S1x1600000_1_0) shapeCasts_S1x1600000_S1600000

/-- The neighbour sum from the two rows of the edge list: for every edge the source's row of `X` added into the
    destination's row of zeros. -/
def aggOf (src dst : (⟨S1600000, .i32⟩ : BufTy).Contents (Elt F)) (X : (⟨S100000x128, .f32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 X
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32)))
          src)))

/-- The neighbour sum of the features `X` along the edge list `E`. -/
def agg (E : (⟨S2x1600000, .i32⟩ : BufTy).Contents (Elt F)) (X : (⟨S100000x128, .f32⟩ : BufTy).Contents (Elt F)) :
    (⟨S100000x128, .f32⟩ : BufTy).Contents (Elt F) :=
  aggOf (srcRow E) (dstRow E) X

/-- Slice 0, 1, 2 of a stack of three `128 × 128` matrices. -/
def mat0 (A : (⟨S3x128x128, .f32⟩ : BufTy).Contents (Elt F)) : (⟨S128x128, .f32⟩ : BufTy).Contents (Elt F) :=
  shapeCast S128x128 (extractStridedSlice S1x128x128 ![0, 0, 0] A slices_S3x128x128_S1x128x128_0_0_0) shapeCasts_S1x128x128_S128x128
def mat1 (A : (⟨S3x128x128, .f32⟩ : BufTy).Contents (Elt F)) : (⟨S128x128, .f32⟩ : BufTy).Contents (Elt F) :=
  shapeCast S128x128 (extractStridedSlice S1x128x128 ![1, 0, 0] A slices_S3x128x128_S1x128x128_1_0_0) shapeCasts_S1x128x128_S128x128
def mat2 (A : (⟨S3x128x128, .f32⟩ : BufTy).Contents (Elt F)) : (⟨S128x128, .f32⟩ : BufTy).Contents (Elt F) :=
  shapeCast S128x128 (extractStridedSlice S1x128x128 ![2, 0, 0] A slices_S3x128x128_S1x128x128_2_0_0) shapeCasts_S1x128x128_S128x128

/-- Slice 0, 1, 2 of a stack of three vectors of 128 entries. -/
def vec0 (B : (⟨S3x128, .f32⟩ : BufTy).Contents (Elt F)) : (⟨S128, .f32⟩ : BufTy).Contents (Elt F) :=
  shapeCast S128 (extractStridedSlice S1x128 ![0, 0] B slices_S3x128_S1x128_0_0) shapeCasts_S1x128_S128
def vec1 (B : (⟨S3x128, .f32⟩ : BufTy).Contents (Elt F)) : (⟨S128, .f32⟩ : BufTy).Contents (Elt F) :=
  shapeCast S128 (extractStridedSlice S1x128 ![1, 0] B slices_S3x128_S1x128_1_0) shapeCasts_S1x128_S128
def vec2 (B : (⟨S3x128, .f32⟩ : BufTy).Contents (Elt F)) : (⟨S128, .f32⟩ : BufTy).Contents (Elt F) :=
  shapeCast S128 (extractStridedSlice S1x128 ![2, 0] B slices_S3x128_S1x128_2_0) shapeCasts_S1x128_S128

section Ideal

variable (a0 : (⟨S100000x128, .f32⟩ : BufTy).Contents (Elt Ideal)) (a1 : (⟨S2x1600000, .i32⟩ : BufTy).Contents (Elt Ideal))
  (a2 : (⟨S3x128x128, .f32⟩ : BufTy).Contents (Elt Ideal)) (a3 : (⟨S3x128, .f32⟩ : BufTy).Contents (Elt Ideal))
  (a4 : (⟨S3x128x128, .f32⟩ : BufTy).Contents (Elt Ideal)) (a5 : (⟨S3x128, .f32⟩ : BufTy).Contents (Elt Ideal))
  (a6 : (⟨S128x40, .f32⟩ : BufTy).Contents (Elt Ideal)) (a7 : (⟨S40, .f32⟩ : BufTy).Contents (Elt Ideal))

/-- The features after the first layer. -/
def feat1 : (⟨S100000x128, .f32⟩ : BufTy).Contents (Elt Ideal) :=
  Gin.ginLayer (agg a1 a0) a0 (mat0 a2) (vec0 a3) (mat0 a4) (vec0 a5)

/-- The features after the second layer. -/
def feat2 : (⟨S100000x128, .f32⟩ : BufTy).Contents (Elt Ideal) :=
  Gin.ginLayer (agg a1 (feat1 a0 a1 a2 a3 a4 a5)) (feat1 a0 a1 a2 a3 a4 a5) (mat1 a2) (vec1 a3) (mat1 a4) (vec1 a5)

/-- The features after the third layer. -/
def feat3 : (⟨S100000x128, .f32⟩ : BufTy).Contents (Elt Ideal) :=
  Gin.ginLayer (agg a1 (feat2 a0 a1 a2 a3 a4 a5)) (feat2 a0 a1 a2 a3 a4 a5) (mat2 a2) (vec2 a3) (mat2 a4) (vec2 a5)

/-- The network's result: the third layer's features projected to the 40 output columns. -/
def result : (⟨S100000x40, .f32⟩ : BufTy).Contents (Elt Ideal) :=
  Gin.affine (feat3 a0 a1 a2 a3 a4 a5) a6 a7

end Ideal

end Cert.KernelIdeal.Net

end
-- ==== Proof.KStretch.lean ====
/-
  The three stretches of host operations between the pallas_calls, each read from an ARBITRARY valuation of the
  buffers it starts from: which buffers it writes and with what function of the buffers it reads, and which buffers
  it leaves alone.

  The first stretch splits the edge list into its two rows, forms the neighbour sum of the input features and takes
  slice 0 of the four stacked weight and bias arguments. The second and third form the neighbour sum of the
  previous layer's result (reading the two rows of the edge list the first stretch left) and take slices 1 and 2.
-/
import proofs.«125752_j1005022347909_1_alg».proof.Proof.Gen.KernelIdeal.Launch
import proofs.«125752_j1005022347909_1_alg».proof.Proof.KDefs
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable {F : FTy → Type} [FloatOps F]
variable (W : Valuation τ sig (Elt F))

/-- A stretch leaves a buffer none of its operations writes as it found it. -/
macro "keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## The first stretch -/

theorem s0_v1 : StableHlo.after hostOps0 W (Proc.devRef .tc main_v1) = Net.srcRow (W (Proc.devRef .tc main_arg1)) := by
  simp only [hostOps0]; after_results; rfl
theorem s0_v3 : StableHlo.after hostOps0 W (Proc.devRef .tc main_v3) = Net.dstRow (W (Proc.devRef .tc main_arg1)) := by
  simp only [hostOps0]; after_results; rfl
set_option maxHeartbeats 2000000 in
theorem s0_v13 : StableHlo.after hostOps0 W (Proc.devRef .tc main_v13)
    = Net.agg (W (Proc.devRef .tc main_arg1)) (W (Proc.devRef .tc main_arg0)) := by
  simp only [hostOps0]; after_results_simp; rfl
theorem s0_v15 : StableHlo.after hostOps0 W (Proc.devRef .tc main_v15) = Net.mat0 (W (Proc.devRef .tc main_arg2)) := by
  simp only [hostOps0]; after_results; rfl
theorem s0_v17 : StableHlo.after hostOps0 W (Proc.devRef .tc main_v17) = Net.vec0 (W (Proc.devRef .tc main_arg3)) := by
  simp only [hostOps0]; after_results; rfl
theorem s0_v19 : StableHlo.after hostOps0 W (Proc.devRef .tc main_v19) = Net.mat0 (W (Proc.devRef .tc main_arg4)) := by
  simp only [hostOps0]; after_results; rfl
theorem s0_v21 : StableHlo.after hostOps0 W (Proc.devRef .tc main_v21) = Net.vec0 (W (Proc.devRef .tc main_arg5)) := by
  simp only [hostOps0]; after_results; rfl

theorem s0_arg0 : StableHlo.after hostOps0 W (Proc.devRef .tc main_arg0) = W (Proc.devRef .tc main_arg0) := by keeps hostOps0
theorem s0_arg2 : StableHlo.after hostOps0 W (Proc.devRef .tc main_arg2) = W (Proc.devRef .tc main_arg2) := by keeps hostOps0
theorem s0_arg3 : StableHlo.after hostOps0 W (Proc.devRef .tc main_arg3) = W (Proc.devRef .tc main_arg3) := by keeps hostOps0
theorem s0_arg4 : StableHlo.after hostOps0 W (Proc.devRef .tc main_arg4) = W (Proc.devRef .tc main_arg4) := by keeps hostOps0
theorem s0_arg5 : StableHlo.after hostOps0 W (Proc.devRef .tc main_arg5) = W (Proc.devRef .tc main_arg5) := by keeps hostOps0
theorem s0_arg6 : StableHlo.after hostOps0 W (Proc.devRef .tc main_arg6) = W (Proc.devRef .tc main_arg6) := by keeps hostOps0
theorem s0_arg7 : StableHlo.after hostOps0 W (Proc.devRef .tc main_arg7) = W (Proc.devRef .tc main_arg7) := by keeps hostOps0

/-! ## The second stretch -/

theorem s1_v32 : StableHlo.after hostOps1 W (Proc.devRef .tc main_v32)
    = Net.aggOf (W (Proc.devRef .tc main_v1)) (W (Proc.devRef .tc main_v3)) (W (Proc.devRef .tc main_v22)) := by
  simp only [hostOps1]; after_results; rfl
theorem s1_v34 : StableHlo.after hostOps1 W (Proc.devRef .tc main_v34) = Net.mat1 (W (Proc.devRef .tc main_arg2)) := by
  simp only [hostOps1]; after_results; rfl
theorem s1_v36 : StableHlo.after hostOps1 W (Proc.devRef .tc main_v36) = Net.vec1 (W (Proc.devRef .tc main_arg3)) := by
  simp only [hostOps1]; after_results; rfl
theorem s1_v38 : StableHlo.after hostOps1 W (Proc.devRef .tc main_v38) = Net.mat1 (W (Proc.devRef .tc main_arg4)) := by
  simp only [hostOps1]; after_results; rfl
theorem s1_v40 : StableHlo.after hostOps1 W (Proc.devRef .tc main_v40) = Net.vec1 (W (Proc.devRef .tc main_arg5)) := by
  simp only [hostOps1]; after_results; rfl

theorem s1_v1 : StableHlo.after hostOps1 W (Proc.devRef .tc main_v1) = W (Proc.devRef .tc main_v1) := by keeps hostOps1
theorem s1_v3 : StableHlo.after hostOps1 W (Proc.devRef .tc main_v3) = W (Proc.devRef .tc main_v3) := by keeps hostOps1
theorem s1_v22 : StableHlo.after hostOps1 W (Proc.devRef .tc main_v22) = W (Proc.devRef .tc main_v22) := by keeps hostOps1
theorem s1_arg2 : StableHlo.after hostOps1 W (Proc.devRef .tc main_arg2) = W (Proc.devRef .tc main_arg2) := by keeps hostOps1
theorem s1_arg3 : StableHlo.after hostOps1 W (Proc.devRef .tc main_arg3) = W (Proc.devRef .tc main_arg3) := by keeps hostOps1
theorem s1_arg4 : StableHlo.after hostOps1 W (Proc.devRef .tc main_arg4) = W (Proc.devRef .tc main_arg4) := by keeps hostOps1
theorem s1_arg5 : StableHlo.after hostOps1 W (Proc.devRef .tc main_arg5) = W (Proc.devRef .tc main_arg5) := by keeps hostOps1
theorem s1_arg6 : StableHlo.after hostOps1 W (Proc.devRef .tc main_arg6) = W (Proc.devRef .tc main_arg6) := by keeps hostOps1
theorem s1_arg7 : StableHlo.after hostOps1 W (Proc.devRef .tc main_arg7) = W (Proc.devRef .tc main_arg7) := by keeps hostOps1

/-! ## The third stretch -/

set_option maxHeartbeats 2000000 in
theorem s2_v51 : StableHlo.after hostOps2 W (Proc.devRef .tc main_v51)
    = Net.aggOf (W (Proc.devRef .tc main_v1)) (W (Proc.devRef .tc main_v3)) (W (Proc.devRef .tc main_v41)) := by
  simp only [hostOps2]; after_results_simp; rfl
theorem s2_v53 : StableHlo.after hostOps2 W (Proc.devRef .tc main_v53) = Net.mat2 (W (Proc.devRef .tc main_arg2)) := by
  simp only [hostOps2]; after_results; rfl
theorem s2_v55 : StableHlo.after hostOps2 W (Proc.devRef .tc main_v55) = Net.vec2 (W (Proc.devRef .tc main_arg3)) := by
  simp only [hostOps2]; after_results; rfl
theorem s2_v57 : StableHlo.after hostOps2 W (Proc.devRef .tc main_v57) = Net.mat2 (W (Proc.devRef .tc main_arg4)) := by
  simp only [hostOps2]; after_results; rfl
theorem s2_v59 : StableHlo.after hostOps2 W (Proc.devRef .tc main_v59) = Net.vec2 (W (Proc.devRef .tc main_arg5)) := by
  simp only [hostOps2]; after_results; rfl

theorem s2_v41 : StableHlo.after hostOps2 W (Proc.devRef .tc main_v41) = W (Proc.devRef .tc main_v41) := by keeps hostOps2
theorem s2_arg6 : StableHlo.after hostOps2 W (Proc.devRef .tc main_arg6) = W (Proc.devRef .tc main_arg6) := by keeps hostOps2
theorem s2_arg7 : StableHlo.after hostOps2 W (Proc.devRef .tc main_arg7) = W (Proc.devRef .tc main_arg7) := by keeps hostOps2

end Cert.KernelIdeal.Stretch

end
-- ==== Proof.LibDotFormats.lean ====
/-
  Matrix products with ONE contracted axis, read at an index, for operands of any float formats.

  Two arrangements of the dimension numbers of a rank-2 product without batch axes:
  * rows by columns: an `A × K` left operand against a `K × B` right operand, the left operand's second axis
    contracted against the right operand's first; entry `(p, q)` is `∑ k, f (p, k) · g (k, q)`;
  * rows by rows: an `A × K` left operand against a `B × K` right operand, the second axis of both contracted
    (the right operand enters transposed); entry `(p, q)` is `∑ k, f (p, k) · g (q, k)`.
  In both the contraction index has the one coordinate `k : Fin K`. Any record with those dimension numbers is
  the library's `DotDims.plain`, respectively `DotDims.transposedRhs`, for which the operand indices compute.
  The operands' element formats are arbitrary (at the ideal values every format is the extended reals), so the
  statements serve a product of half-precision operands accumulated in single precision as well.
-/
import Idealize.ShloMosaic.PureOps.Ideal
import Idealize.ShloMosaic.PureOps.Ideal.Laws
import Idealize.ShloMosaic.Lib.ValueIdx

noncomputable section

namespace Cert.LibDotFormats

open Idealize.ShloMosaic Idealize.ShloMosaic.ValueIdx
open scoped BigOperators

variable {A K B : Nat}

/-! ## Rows by columns: `[A, K] × [K, B]`, dimension numbers `[1] × [0]` -/

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl
theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A product into the zero accumulator, at `(p, q)`: `∑ k, lhs (p, k) · rhs (k, q)`. -/
theorem matmul_cols_zero_apply {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-! ## Rows by rows: `[A, K] × [B, K]`, dimension numbers `[1] × [1]` -/

/-- Dimension numbers `[1] × [1]`, free axes `[0]` and `[0]`, no batch: the record is `DotDims.transposedRhs`. -/
theorem eq_transposedRhs (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) : d = DotDims.transposedRhs A K B := by
  cases d
  simp only at hlc hrc hln hrn hlb hrb
  subst hlc hrc hln hrn hlb hrb
  rfl

theorem rows_rank : (DotDims.transposedRhs A K B).contr.rank = 1 := rfl
theorem rows_size : (DotDims.transposedRhs A K B).contr.size ⟨0, by rw [rows_rank]; exact Nat.one_pos⟩ = K := rfl

theorem rows_lhs (p : Fin A) (q : Fin B) (k : Fin K) :
    (DotDims.transposedRhs A K B).lhsIdx (ix2 p q) ((contrEquiv1 (DotDims.transposedRhs A K B) K rows_rank rows_size).symm k) = ix2 p k := by
  funext a
  apply Fin.ext
  match a with
  | ⟨0, _⟩ => rfl
  | ⟨1, _⟩ => rfl

theorem rows_rhs (p : Fin A) (q : Fin B) (k : Fin K) :
    (DotDims.transposedRhs A K B).rhsIdx (ix2 p q) ((contrEquiv1 (DotDims.transposedRhs A K B) K rows_rank rows_size).symm k) = ix2 q k := by
  funext a
  apply Fin.ext
  match a with
  | ⟨0, _⟩ => rfl
  | ⟨1, _⟩ => rfl

/-- The sum over the contraction index is the sum over `k : Fin K` of `f (p, k) · g (q, k)`. -/
theorem rows_sum (f : (⟨2, ![A, K]⟩ : Shape).Idx → EReal) (g : (⟨2, ![B, K]⟩ : Shape).Idx → EReal) (p : Fin A) (q : Fin B) :
    ∑ k : (DotDims.transposedRhs A K B).contr.Idx,
        f ((DotDims.transposedRhs A K B).lhsIdx (ix2 p q) k) * g ((DotDims.transposedRhs A K B).rhsIdx (ix2 p q) k)
      = ∑ k : Fin K, f (ix2 p k) * g (ix2 q k) := by
  rw [← Equiv.sum_comp (contrEquiv1 (DotDims.transposedRhs A K B) K rows_rank rows_size).symm]
  refine Finset.sum_congr rfl fun k _ => ?_
  rw [rows_lhs, rows_rhs]

/-- A product into the zero accumulator with the right operand contracted on its last axis, at `(p, q)`:
    `∑ k, lhs (p, k) · rhs (q, k)`. -/
theorem matmul_rows_zero_apply {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q) = ∑ k : Fin K, lhs (ix2 p k) * rhs (ix2 q k) := by
  rw [eq_transposedRhs d hlc hrc hln hrn hlb hrb, Ideal.matmul_constant_zero_apply]
  exact rows_sum lhs rhs p q

end Cert.LibDotFormats

end
-- ==== Proof.LibPlainDot.lean ====
/-
  A matrix product contracted over ONE axis, read at an index.

  For an `A × K` left operand and a `K × B` right operand whose dimension numbers contract the left operand's
  second axis against the right operand's first (no batch axes), the contraction index has one coordinate
  `k : Fin K`, the left operand is read at `(p, k)` and the right one at `(k, q)`. So the sum over the contraction
  index that the product's value is stated with is the textbook `∑ k, f (p, k) · g (k, q)`, whatever the sizes.
  `eq_plain` identifies any record with these dimension numbers with the library's `DotDims.plain`, for which the
  two operand indices compute.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx
open scoped BigOperators

variable {A K B : Nat}

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

/-- The contraction shape has one axis … -/
theorem plain_rank : (DotDims.plain A K B).contr.rank = 1 := rfl
/-- … of extent `K`. -/
theorem plain_size : (DotDims.plain A K B).contr.size ⟨0, by rw [plain_rank]; exact Nat.one_pos⟩ = K := rfl

/-- At result index `(p, q)` and contraction coordinate `k` the left operand is read at `(p, k)`. -/
theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

/-- At result index `(p, q)` and contraction coordinate `k` the right operand is read at `(k, q)`. -/
theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A block product into the zero accumulator, at `(p, q)`: `∑ k, lhs (p, k) · rhs (k, q)`. -/
theorem matmul_zero_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-- The host's product at `(p, q)`, whatever its schedule key: the same sum. -/
theorem dotGeneral_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ .f32) (rhs : FVec Ideal ⟨2, ![K, B]⟩ .f32)
    (p : Fin A) (q : Fin B) :
    FloatOps.dotGeneral d prec sched lhs rhs (ix2 p q) = ∑ k : Fin K, lhs (ix2 p k) * rhs (ix2 k q) := by
  rw [eq_plain d hlc hrc hln hrn hlb hrb, Ideal.dotGeneral_apply]
  exact plain_sum lhs rhs p q

end Cert.LibPlainDot

end
-- ==== Proof.LibBroadcastInDim.lean ====
/-
  `broadcast_in_dim` between vectors, columns, rows and matrices, read at an index (any sizes, any element type).

  * an `[a]` vector placed along axis 0 of `[a, 1]`: entry `(i, u)` is the vector's entry `i`;
  * an `[a, 1]` column spread to `[a, b]`: entry `(i, j)` is the column's entry `(i, 0)`;
  * a `[b]` vector placed along axis 1 of `[1, b]`: entry `(u, j)` is the vector's entry `j`;
  * a `[1, b]` row spread to `[a, b]`: entry `(i, j)` is the row's entry `(0, j)`;
  * a scalar spread to any shape: every entry is the scalar.
  In each case the operand index keeps the coordinates on the axes the operand has and is zero on a unit axis
  (an axis of extent one has only the coordinate zero, so the two readings of such an axis agree).
-/
import Idealize.ShloMosaic.Lib.ValueIdx
import Idealize.ShloMosaic.Lib.Pipeline.Value

namespace Cert.LibBroadcastInDim

open Idealize.ShloMosaic Idealize.ShloMosaic.ValueIdx

variable {α : Type}

/-- An `[a]` vector placed along axis 0 of `[a, 1]` reads, at `(i, u)`, the vector at `i`. -/
theorem vec_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- An `[a, 1]` column spread to `[a, b]` reads, at `(i, j)`, the column at `(i, 0)`. -/
theorem col_mat_apply {a b : ℕ} (x : (⟨2, ![a, 1]⟩ : Shape).Idx → α)
    (h : (⟨2, ![a, 1]⟩ : Shape).BroadcastsInDim ⟨2, ![a, b]⟩ (![0, 1] : Fin 2 → Fin 2)) (i : Fin a) (j : Fin b) :
    broadcastInDim ⟨2, ![a, b]⟩ (![0, 1] : Fin 2 → Fin 2) h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ => rfl

/-- A `[b]` vector placed along axis 1 of `[1, b]` reads, at `(u, j)`, the vector at `j`. -/
theorem vec_row_apply {b : ℕ} (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ (![1] : Fin 1 → Fin 2) h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A `[1, b]` row spread to `[a, b]` reads, at `(i, j)`, the row at `(0, j)`. -/
theorem row_mat_apply {a b : ℕ} (x : (⟨2, ![1, b]⟩ : Shape).Idx → α)
    (h : (⟨2, ![1, b]⟩ : Shape).BroadcastsInDim ⟨2, ![a, b]⟩ (![0, 1] : Fin 2 → Fin 2)) (i : Fin a) (j : Fin b) :
    broadcastInDim ⟨2, ![a, b]⟩ (![0, 1] : Fin 2 → Fin 2) h x (ix2 i j) = x (ix2 (0 : Fin 1) j) := by
  refine broadcastInDim_apply _ h x (ix2 i j) (ix2 (0 : Fin 1) j) fun ax => ?_
  match ax with
  | ⟨0, _⟩ => rfl
  | ⟨1, _⟩ =>
    show j.val = if b = 1 then 0 else j.val
    split
    · have := j.isLt; omega
    · rfl

/-- A scalar spread to any shape reads the scalar at every index. -/
theorem scalar_apply {t : Shape} (x : (⟨0, ![]⟩ : Shape).Idx → α)
    (h : (⟨0, ![]⟩ : Shape).BroadcastsInDim t (![] : Fin 0 → Fin t.rank)) (j : t.Idx) (k : (⟨0, ![]⟩ : Shape).Idx) :
    broadcastInDim t (![] : Fin 0 → Fin t.rank) h x j = x k :=
  broadcastInDim_apply _ h x j k fun ax => ax.elim0

end Cert.LibBroadcastInDim
-- ==== Proof.Ops.lean ====
/-
  The vector operations a block is computed with, and the host operations the whole arrays are computed with,
  read as the layer's building blocks over the extended reals.

  * A product of two operands cast to half precision, accumulated from the zero word, plus a bias vector laid along
    the columns and spread over the rows, is `L · W + b`: a change of format is the identity on the extended reals,
    the zero word is `0`, and the product at `(p, q)` is `∑ k, L (p, k) · W (k, q)`.
  * The host's product plus a bias vector placed along axis 1 and spread over the rows is the same `L · W + b`.
  * The maximum with a splat of the zero word is `relu`, whether the splat is a vector broadcast of the scalar or a
    host broadcast of the rank-0 constant.
-/
import proofs.«125752_j1005022347909_1_alg».proof.Proof.Spec
import proofs.«125752_j1005022347909_1_alg».proof.Proof.LibDotFormats
import proofs.«125752_j1005022347909_1_alg».proof.Proof.LibPlainDot
import proofs.«125752_j1005022347909_1_alg».proof.Proof.LibBroadcastInDim
import Idealize.ShloMosaic.PureOps.Ideal.Laws
import Idealize.ShloMosaic.Lib.ValueLayout

noncomputable section

namespace Cert.Gin

open Idealize.ShloMosaic Idealize.ShloMosaic.ValueIdx
open scoped BigOperators

variable {n d e : Nat}

/-- The block's `L · W + b`: half-precision casts of both operands into the product from the zero accumulator, the
    bias vector cast to one row and broadcast over the rows. -/
theorem block_affine (dd : DotDims ⟨2, ![n, d]⟩ ⟨2, ![d, e]⟩ ⟨2, ![n, e]⟩)
    (hlc : dd.lhsContracting = [1]) (hrc : dd.rhsContracting = [0]) (hln : dd.lhsNonContracting = [0])
    (hrn : dd.rhsNonContracting = [1]) (hlb : dd.lhsBatch = []) (hrb : dd.rhsBatch = [])
    (hb : FTy.bits .bf16 < FTy.bits .f32)
    (hc : (⟨1, ![e]⟩ : Shape).ShapeCasts ⟨2, ![1, e]⟩) (hbc : (⟨2, ![1, e]⟩ : Shape).Broadcasts ⟨2, ![n, e]⟩)
    (x : FVec Ideal ⟨2, ![n, d]⟩ .f32) (w : FVec Ideal ⟨2, ![d, e]⟩ .f32) (b : FVec Ideal ⟨1, ![e]⟩ .f32) :
    addf (matmul dd none (truncf .bf16 x hb) (truncf .bf16 w hb) (constant ⟨2, ![n, e]⟩ .f32 0x00000000#32))
        (broadcastTo ⟨2, ![n, e]⟩ (shapeCast ⟨2, ![1, e]⟩ b hc) hbc)
      = affine x w b := by
  funext i
  obtain ⟨p, q, rfl⟩ : ∃ (p : Fin n) (q : Fin e), i = ix2 p q := ⟨i 0, i 1, eq_ix2 i⟩
  rw [addf_apply, affine_apply]
  unfold affineAt
  rw [broadcastTo_1b_ab_apply, shapeCast_a_1a_apply]
  refine congrArg (· + b (ix1 q)) ?_
  exact LibDotFormats.matmul_cols_zero_apply dd hlc hrc hln hrn hlb hrb none (truncf .bf16 x hb) (truncf .bf16 w hb) p q

/-- The host's `L · W + b`: the product, the bias vector placed along axis 1 of one row and that row spread over
    the rows. -/
theorem host_affine (dd : DotDims ⟨2, ![n, d]⟩ ⟨2, ![d, e]⟩ ⟨2, ![n, e]⟩)
    (hlc : dd.lhsContracting = [1]) (hrc : dd.rhsContracting = [0]) (hln : dd.lhsNonContracting = [0])
    (hrn : dd.rhsNonContracting = [1]) (hlb : dd.lhsBatch = []) (hrb : dd.rhsBatch = [])
    (hv : (⟨1, ![e]⟩ : Shape).BroadcastsInDim ⟨2, ![1, e]⟩ (![1] : Fin 1 → Fin 2))
    (hm : (⟨2, ![1, e]⟩ : Shape).BroadcastsInDim ⟨2, ![n, e]⟩ (![0, 1] : Fin 2 → Fin 2))
    (L : FVec Ideal ⟨2, ![n, d]⟩ .f32) (W : FVec Ideal ⟨2, ![d, e]⟩ .f32) (b : FVec Ideal ⟨1, ![e]⟩ .f32) :
    addf (Host.dotGeneral dd none L W)
        (broadcastInDim ⟨2, ![n, e]⟩ (![0, 1] : Fin 2 → Fin 2) hm (broadcastInDim ⟨2, ![1, e]⟩ (![1] : Fin 1 → Fin 2) hv b))
      = affine L W b := by
  funext i
  obtain ⟨p, q, rfl⟩ : ∃ (p : Fin n) (q : Fin e), i = ix2 p q := ⟨i 0, i 1, eq_ix2 i⟩
  rw [addf_apply, affine_apply]
  unfold affineAt
  rw [LibBroadcastInDim.row_mat_apply, LibBroadcastInDim.vec_row_apply]
  refine congrArg (· + b (ix1 q)) ?_
  simp only [Host.dotGeneral]
  exact LibPlainDot.dotGeneral_apply dd hlc hrc hln hrn hlb hrb none _ L W p q

/-- The maximum with the vector splat of the scalar zero word is `relu`. -/
theorem block_relu (v : FVec Ideal ⟨2, ![n, e]⟩ .f32) :
    maximumf v (broadcast ⟨2, ![n, e]⟩ (Scalar.ofBits (F := Ideal) .f32 0x00000000#32)) = relu v := by
  funext i
  rw [maximumf_apply, broadcast_apply, relu_apply]
  exact congrArg (max (v i)) Ideal.ofBits_zero_f32

/-- The maximum with the host's broadcast of the rank-0 zero constant is `relu`. -/
theorem host_relu (hz : (⟨0, ![]⟩ : Shape).BroadcastsInDim ⟨2, ![n, e]⟩ (![] : Fin 0 → Fin 2))
    (v : FVec Ideal ⟨2, ![n, e]⟩ .f32) :
    maximumf v (broadcastInDim ⟨2, ![n, e]⟩ (![] : Fin 0 → Fin 2) hz (constant (F := Ideal) ⟨0, ![]⟩ .f32 0x00000000#32)) = relu v := by
  funext i
  rw [maximumf_apply, LibBroadcastInDim.scalar_apply _ hz i ix0, constant_apply, relu_apply]
  exact congrArg (max (v i)) Ideal.ofBits_zero_f32

/-- The sum of two arrays is `plus`. -/
theorem addf_plus (A X : FVec Ideal ⟨2, ![n, d]⟩ .f32) : addf A X = plus A X := rfl

end Cert.Gin

end
-- ==== Proof.KBody.lean ====
/-
  What one grid point's body leaves in its output block, as the layer (or the projection) of the point's input
  blocks: the body adds the two row blocks, multiplies by the first weight matrix, adds the first bias, clips at
  zero, multiplies by the second weight matrix, adds the second bias and clips at zero again; every change of
  float format in between is the identity on the extended reals. The last kernel's body is one product and one bias.
-/
import proofs.«125752_j1005022347909_1_alg».proof.Proof.Gen.KernelIdeal.Frame
import proofs.«125752_j1005022347909_1_alg».proof.Proof.Ops
import Idealize.ShloMosaic.Lib.Pipeline.Value

noncomputable section

namespace Cert.KernelIdeal.Body

open Cert.KernelIdeal Cert.KernelIdeal.Gen
open Idealize.ShloMosaic Idealize.ShloMosaic.TcCoe Idealize.ShloMosaic.ValueIdx Idealize.SL.Sem

theorem hz2 : (![0, 0] : Fin 2 → Nat) = fun _ => 0 := funext fun a => by fin_cases a <;> rfl
theorem hz1 : (![0] : Fin 1 → Nat) = fun _ => 0 := funext fun a => by fin_cases a; rfl

/-- The first layer's arithmetic on loaded blocks is the layer. -/
theorem pay0 (x0 x1 : Vec Ideal S2000x128 .f32) (x2 : Vec Ideal S128x128 .f32) (x3 : Vec Ideal S128 .f32)
    (x4 : Vec Ideal S128x128 .f32) (x5 : Vec Ideal S128 .f32) :
    k0_pay1 (F := Ideal) x0 x1 x2 x3 x4 x5 = Gin.ginLayer x0 x1 x2 x3 x4 x5 := by
  unfold k0_pay1
  simp only [shapeCast_self]
  unfold Gin.ginLayer
  rw [Gin.block_relu, Gin.block_affine dot_S2000x128_S128x128_S2000x128_1_0_0_1_n_n rfl rfl rfl rfl rfl rfl,
    Gin.block_relu, Gin.block_affine dot_S2000x128_S128x128_S2000x128_1_0_0_1_n_n rfl rfl rfl rfl rfl rfl, Gin.addf_plus]

/-- The second layer's arithmetic on loaded blocks is the layer. -/
theorem pay1 (x0 x1 : Vec Ideal S2000x128 .f32) (x2 : Vec Ideal S128x128 .f32) (x3 : Vec Ideal S128 .f32)
    (x4 : Vec Ideal S128x128 .f32) (x5 : Vec Ideal S128 .f32) :
    k1_pay1 (F := Ideal) x0 x1 x2 x3 x4 x5 = Gin.ginLayer x0 x1 x2 x3 x4 x5 := by
  unfold k1_pay1
  simp only [shapeCast_self]
  unfold Gin.ginLayer
  rw [Gin.block_relu, Gin.block_affine dot_S2000x128_S128x128_S2000x128_1_0_0_1_n_n rfl rfl rfl rfl rfl rfl,
    Gin.block_relu, Gin.block_affine dot_S2000x128_S128x128_S2000x128_1_0_0_1_n_n rfl rfl rfl rfl rfl rfl, Gin.addf_plus]

/-- The third layer's arithmetic on loaded blocks is the layer. -/
theorem pay2 (x0 x1 : Vec Ideal S2000x128 .f32) (x2 : Vec Ideal S128x128 .f32) (x3 : Vec Ideal S128 .f32)
    (x4 : Vec Ideal S128x128 .f32) (x5 : Vec Ideal S128 .f32) :
    k2_pay1 (F := Ideal) x0 x1 x2 x3 x4 x5 = Gin.ginLayer x0 x1 x2 x3 x4 x5 := by
  unfold k2_pay1
  simp only [shapeCast_self]
  unfold Gin.ginLayer
  rw [Gin.block_relu, Gin.block_affine dot_S2000x128_S128x128_S2000x128_1_0_0_1_n_n rfl rfl rfl rfl rfl rfl,
    Gin.block_relu, Gin.block_affine dot_S2000x128_S128x128_S2000x128_1_0_0_1_n_n rfl rfl rfl rfl rfl rfl, Gin.addf_plus]

/-- The projection's arithmetic on loaded blocks is `L · W + b`. -/
theorem pay3 (x0 : Vec Ideal S2000x128 .f32) (x1 : Vec Ideal S128x40 .f32) (x2 : Vec Ideal S40 .f32) :
    k3_pay1 (F := Ideal) x0 x1 x2 = Gin.affine x0 x1 x2 := by
  unfold k3_pay1
  simp only [shapeCast_self]
  rw [Gin.block_affine dot_S2000x128_S128x40_S2000x40_1_0_0_1_n_n rfl rfl rfl rfl rfl rfl]

/-- The first layer's output block after the body: the layer of the input blocks. -/
theorem out0 (x0 x1 : Vec Ideal S2000x128 .f32) (x2 : Vec Ideal S128x128 .f32) (x3 : Vec Ideal S128 .f32)
    (x4 : Vec Ideal S128x128 .f32) (x5 : Vec Ideal S128 .f32) :
    out0_6 (F := Ideal) x0 x1 x2 x3 x4 x5 = Gin.ginLayer x0 x1 x2 x3 x4 x5 := by
  unfold out0_6
  rw [View.canon_unit_zero hz2]
  simp only [View.ld_unit_zero (S := S2000x128) hz2, View.ld_unit_zero (S := S128x128) hz2, View.ld_unit_zero (S := S128) hz1]
  exact pay0 x0 x1 x2 x3 x4 x5

/-- The second layer's output block after the body. -/
theorem out1 (x0 x1 : Vec Ideal S2000x128 .f32) (x2 : Vec Ideal S128x128 .f32) (x3 : Vec Ideal S128 .f32)
    (x4 : Vec Ideal S128x128 .f32) (x5 : Vec Ideal S128 .f32) :
    out1_6 (F := Ideal) x0 x1 x2 x3 x4 x5 = Gin.ginLayer x0 x1 x2 x3 x4 x5 := by
  unfold out1_6
  rw [View.canon_unit_zero hz2]
  simp only [View.ld_unit_zero (S := S2000x128) hz2, View.ld_unit_zero (S := S128x128) hz2, View.ld_unit_zero (S := S128) hz1]
  exact pay1 x0 x1 x2 x3 x4 x5

/-- The third layer's output block after the body. -/
theorem out2 (x0 x1 : Vec Ideal S2000x128 .f32) (x2 : Vec Ideal S128x128 .f32) (x3 : Vec Ideal S128 .f32)
    (x4 : Vec Ideal S128x128 .f32) (x5 : Vec Ideal S128 .f32) :
    out2_6 (F := Ideal) x0 x1 x2 x3 x4 x5 = Gin.ginLayer x0 x1 x2 x3 x4 x5 := by
  unfold out2_6
  rw [View.canon_unit_zero hz2]
  simp only [View.ld_unit_zero (S := S2000x128) hz2, View.ld_unit_zero (S := S128x128) hz2, View.ld_unit_zero (S := S128) hz1]
  exact pay2 x0 x1 x2 x3 x4 x5

/-- The projection's output block after the body. -/
theorem out3 (x0 : Vec Ideal S2000x128 .f32) (x1 : Vec Ideal S128x40 .f32) (x2 : Vec Ideal S40 .f32) :
    out3_3 (F := Ideal) x0 x1 x2 = Gin.affine x0 x1 x2 := by
  unfold out3_3
  rw [View.canon_unit_zero hz2]
  simp only [View.ld_unit_zero (S := S2000x128) hz2, View.ld_unit_zero (S := S128x40) hz2, View.ld_unit_zero (S := S40) hz1]
  exact pay3 x0 x1 x2

end Cert.KernelIdeal.Body

end
-- ==== Proof.KRegion0.lean ====
/-
  The first layer's pallas_call as one function of the arrays it is entered with: grid point `t` stages rows
  `2000 t … 2000 t + 1999` of the neighbour sums and of the features together with the whole weight matrices and
  bias vectors, and writes the same rows of the result. A row of the layer depends on that row of its two row
  operands only, so each written block is the block of the layer of the WHOLE arrays, and the fifty blocks tile the
  result array.
-/
import proofs.«125752_j1005022347909_1_alg».proof.Proof.Gen.KernelIdeal.Frame
import proofs.«125752_j1005022347909_1_alg».proof.Proof.KBody
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

/-- A block of 2000 rows of the layer, computed from the same rows of the two row operands, is those rows of the
    layer of the whole arrays. -/
theorem layer_block (A X : S100000x128.Idx → EReal) (W1 : S128x128.Idx → EReal) (b1 : S128.Idx → EReal)
    (W2 : S128x128.Idx → EReal) (b2 : S128.Idx → EReal) (xa xx : S2000x128.Idx → EReal) (tv : Nat)
    (hA : ∀ (p : Fin 2000) (p' : Fin 100000) (k : Fin 128), p'.val = tv * 2000 + p.val → xa (ix2 p k) = A (ix2 p' k))
    (hX : ∀ (p : Fin 2000) (p' : Fin 100000) (k : Fin 128), p'.val = tv * 2000 + p.val → xx (ix2 p k) = X (ix2 p' k))
    (j : S2000x128.Idx) (i : S100000x128.Idx) (hi0 : (i 0).val = tv * 2000 + (j 0).val) (hi1 : (i 1).val = (j 1).val) :
    Gin.ginLayer xa xx W1 b1 W2 b2 j = Gin.ginLayer A X W1 b1 W2 b2 i := by
  obtain ⟨p, q, rfl⟩ : ∃ (p : Fin 2000) (q : Fin 128), j = ix2 p q := ⟨j 0, j 1, eq_ix2 j⟩
  obtain ⟨p', q', rfl⟩ : ∃ (p' : Fin 100000) (q' : Fin 128), i = ix2 p' q' := ⟨i 0, i 1, eq_ix2 i⟩
  obtain rfl : q' = q := Fin.ext hi1
  exact Gin.ginLayer_rows xa xx A X W1 b1 W2 b2 p p' q' (fun k => hA p p' k hi0) (fun k => hX p p' k hi0)

variable (V : (c : Dev nD) → (b : Ref sig .tc) → Buf (Elt Ideal) ((c : Thread nD τ).loc b))

/-- The printed index maps over the grid: the row windows take block `t` of the rows at point `t`, the weight and
    bias windows their one block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Window 0's block at point `t`: rows `2000 t …` of the neighbour sums. -/
theorem rows0 (c : Dev nD) (t : Fin cfg0.N) (p : Fin 2000) (p' : Fin 100000) (k : Fin 128) (h : p'.val = t.val * 2000 + p.val) :
    (iblk0 V c 0 t : S2000x128.Idx → EReal) (ix2 p k) = (V c main_v13 : S100000x128.Idx → EReal) (ix2 p' k) := by
  obtain ⟨e00, e01, -⟩ := idx_facts t
  unfold iblk0
  rw [View.read_apply]
  show (V c main_v13 : S100000x128.Idx → EReal) _ = _
  refine congrArg _ (funext fun a => Fin.ext ?_)
  match a with
  | ⟨0, _⟩ => show win0_0.index t (0 : Fin 2) * 2000 + 1 * p.val = p'.val; rw [e00, h]; omega
  | ⟨1, _⟩ => show win0_0.index t (1 : Fin 2) * 128 + 1 * k.val = k.val; rw [e01]; omega

/-- Window 1's block at point `t`: rows `2000 t …` of the features. -/
theorem rows1 (c : Dev nD) (t : Fin cfg0.N) (p : Fin 2000) (p' : Fin 100000) (k : Fin 128) (h : p'.val = t.val * 2000 + p.val) :
    (iblk0 V c 1 t : S2000x128.Idx → EReal) (ix2 p k) = (V c main_arg0 : S100000x128.Idx → EReal) (ix2 p' k) := by
  obtain ⟨-, -, e10, e11, -⟩ := idx_facts t
  unfold iblk0
  rw [View.read_apply]
  show (V c main_arg0 : S100000x128.Idx → EReal) _ = _
  refine congrArg _ (funext fun a => Fin.ext ?_)
  match a with
  | ⟨0, _⟩ => show win0_1.index t (0 : Fin 2) * 2000 + 1 * p.val = p'.val; rw [e10, h]; omega
  | ⟨1, _⟩ => show win0_1.index t (1 : Fin 2) * 128 + 1 * k.val = k.val; rw [e11]; omega

/-- Windows 2 to 5 stage their whole arrays at every point. -/
theorem whole2 (c : Dev nD) (t : Fin cfg0.N) : (iblk0 V c 2 t : S128x128.Idx → EReal) = V c main_v15 := by
  obtain ⟨-, -, -, -, e20, e21, -⟩ := idx_facts t
  funext y
  unfold iblk0
  rw [View.read_apply]
  show (V c main_v15 : S128x128.Idx → EReal) _ = _
  refine congrArg _ (funext fun a => Fin.ext ?_)
  match a with
  | ⟨0, _⟩ => show win0_2.index t (0 : Fin 2) * 128 + 1 * (y 0).val = (y 0).val; rw [e20]; omega
  | ⟨1, _⟩ => show win0_2.index t (1 : Fin 2) * 128 + 1 * (y 1).val = (y 1).val; rw [e21]; omega

theorem whole3 (c : Dev nD) (t : Fin cfg0.N) : (iblk0 V c 3 t : S128.Idx → EReal) = V c main_v17 := by
  obtain ⟨-, -, -, -, -, -, e30, -⟩ := idx_facts t
  funext y
  unfold iblk0
  rw [View.read_apply]
  show (V c main_v17 : S128.Idx → EReal) _ = _
  refine congrArg _ (funext fun a => Fin.ext ?_)
  match a with
  | ⟨0, _⟩ => show win0_3.index t (0 : Fin 1) * 128 + 1 * (y 0).val = (y 0).val; rw [e30]; omega

theorem whole4 (c : Dev nD) (t : Fin cfg0.N) : (iblk0 V c 4 t : S128x128.Idx → EReal) = V c main_v19 := by
  obtain ⟨-, -, -, -, -, -, -, e40, e41, -⟩ := idx_facts t
  funext y
  unfold iblk0
  rw [View.read_apply]
  show (V c main_v19 : S128x128.Idx → EReal) _ = _
  refine congrArg _ (funext fun a => Fin.ext ?_)
  match a with
  | ⟨0, _⟩ => show win0_4.index t (0 : Fin 2) * 128 + 1 * (y 0).val = (y 0).val; rw [e40]; omega
  | ⟨1, _⟩ => show win0_4.index t (1 : Fin 2) * 128 + 1 * (y 1).val = (y 1).val; rw [e41]; omega

theorem whole5 (c : Dev nD) (t : Fin cfg0.N) : (iblk0 V c 5 t : S128.Idx → EReal) = V c main_v21 := by
  obtain ⟨-, -, -, -, -, -, -, -, -, e50, -⟩ := idx_facts t
  funext y
  unfold iblk0
  rw [View.read_apply]
  show (V c main_v21 : S128.Idx → EReal) _ = _
  refine congrArg _ (funext fun a => Fin.ext ?_)
  match a with
  | ⟨0, _⟩ => show win0_5.index t (0 : Fin 1) * 128 + 1 * (y 0).val = (y 0).val; rw [e50]; omega

/-- What point `t` writes back is block `t` of the layer of the arrays the region is entered with. -/
theorem flushed_eq (c : Dev nD) (t : Fin cfg0.N) :
    (dat0 V c).flushed 6 t = ((cfg0.win 6).blk t).view.read (Elt Ideal)
      (Gin.ginLayer (V c main_v13) (V c main_arg0) (V c main_v15) (V c main_v17) (V c main_v19) (V c main_v21)) := by
  show (cfg0.win 6).cut (grid0.coords t) ((dat0 V c).after 6 t) = _
  rw [after0_6]
  obtain ⟨-, -, -, -, -, -, -, -, -, -, e60, e61⟩ := idx_facts t
  funext j
  rw [View.read_apply]
  show out0_6 (F := Ideal) (iblk0 V c 0 t) (iblk0 V c 1 t) (iblk0 V c 2 t) (iblk0 V c 3 t) (iblk0 V c 4 t) (iblk0 V c 5 t) j = _
  rw [Body.out0, whole2 V c t, whole3 V c t, whole4 V c t, whole5 V c t]
  refine layer_block _ _ _ _ _ _ _ _ t.val (rows0 V c t) (rows1 V c t) j _ ?_ ?_
  · show win0_6.index t (0 : Fin 2) * 2000 + 1 * (j 0).val = t.val * 2000 + (j 0).val; rw [e60]; omega
  · show win0_6.index t (1 : Fin 2) * 128 + 1 * (j 1).val = (j 1).val; rw [e61]; omega

/-- An index of the result array is in point `t`'s block iff its row is among the block's 2000 rows. -/
theorem mem_blk (t : Fin cfg0.N) (i : S100000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v22).slice (win0_6.rect t)).set ↔ _
  rw [View.set_slice_whole, Rect.mem_set_unit]
  exact Iff.rfl

/-- The result array after the region: the layer of the arrays the region is entered with. -/
theorem final (c : Dev nD) : (dat0 V c).arrAt 6 cfg0.N
    = Gin.ginLayer (V c main_v13) (V c main_arg0) (V c main_v15) (V c main_v17) (V c main_v19) (V c main_v21) :=
  (dat0 V c).arrAt_eq_of_cover 6 _ (fun t _ => flushed_eq V c t) fun i => by
    have hi0 : (i 0).val < 100000 := (i 0).isLt
    have hi1 : (i 1).val < 128 := (i 1).isLt
    refine ⟨⟨(i 0).val / 2000, by show _ < 50; omega⟩, flush0_6 _, ?_⟩
    rw [mem_blk]
    obtain ⟨-, -, -, -, -, -, -, -, -, -, e60, e61⟩ := idx_facts ⟨(i 0).val / 2000, by show _ < 50; omega⟩
    intro a
    match a with
    | ⟨0, _⟩ => show win0_6.index _ (0 : Fin 2) * 2000 ≤ (i 0).val ∧ (i 0).val < win0_6.index _ (0 : Fin 2) * 2000 + 2000; rw [e60]; show (i 0).val / 2000 * 2000 ≤ _ ∧ _ < (i 0).val / 2000 * 2000 + 2000; omega
    | ⟨1, _⟩ => show win0_6.index _ (1 : Fin 2) * 128 ≤ (i 1).val ∧ (i 1).val < win0_6.index _ (1 : Fin 2) * 128 + 128; rw [e61]; omega

end Cert.KernelIdeal.Region0

end
-- ==== Proof.KRegion1.lean ====
/-
  The second layer's pallas_call as one function of the arrays it is entered with: grid point `t` stages rows
  `2000 t … 2000 t + 1999` of the neighbour sums and of the features together with the whole weight matrices and
  bias vectors, and writes the same rows of the result. A row of the layer depends on that row of its two row
  operands only, so each written block is the block of the layer of the WHOLE arrays, and the fifty blocks tile the
  result array.
-/
import proofs.«125752_j1005022347909_1_alg».proof.Proof.Gen.KernelIdeal.Frame
import proofs.«125752_j1005022347909_1_alg».proof.Proof.KBody
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

/-- A block of 2000 rows of the layer, computed from the same rows of the two row operands, is those rows of the
    layer of the whole arrays. -/
theorem layer_block (A X : S100000x128.Idx → EReal) (W1 : S128x128.Idx → EReal) (b1 : S128.Idx → EReal)
    (W2 : S128x128.Idx → EReal) (b2 : S128.Idx → EReal) (xa xx : S2000x128.Idx → EReal) (tv : Nat)
    (hA : ∀ (p : Fin 2000) (p' : Fin 100000) (k : Fin 128), p'.val = tv * 2000 + p.val → xa (ix2 p k) = A (ix2 p' k))
    (hX : ∀ (p : Fin 2000) (p' : Fin 100000) (k : Fin 128), p'.val = tv * 2000 + p.val → xx (ix2 p k) = X (ix2 p' k))
    (j : S2000x128.Idx) (i : S100000x128.Idx) (hi0 : (i 0).val = tv * 2000 + (j 0).val) (hi1 : (i 1).val = (j 1).val) :
    Gin.ginLayer xa xx W1 b1 W2 b2 j = Gin.ginLayer A X W1 b1 W2 b2 i := by
  obtain ⟨p, q, rfl⟩ : ∃ (p : Fin 2000) (q : Fin 128), j = ix2 p q := ⟨j 0, j 1, eq_ix2 j⟩
  obtain ⟨p', q', rfl⟩ : ∃ (p' : Fin 100000) (q' : Fin 128), i = ix2 p' q' := ⟨i 0, i 1, eq_ix2 i⟩
  obtain rfl : q' = q := Fin.ext hi1
  exact Gin.ginLayer_rows xa xx A X W1 b1 W2 b2 p p' q' (fun k => hA p p' k hi0) (fun k => hX p p' k hi0)

variable (V : (c : Dev nD) → (b : Ref sig .tc) → Buf (Elt Ideal) ((c : Thread nD τ).loc b))

/-- The printed index maps over the grid: the row windows take block `t` of the rows at point `t`, the weight and
    bias windows their one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Window 0's block at point `t`: rows `2000 t …` of the neighbour sums. -/
theorem rows0 (c : Dev nD) (t : Fin cfg1.N) (p : Fin 2000) (p' : Fin 100000) (k : Fin 128) (h : p'.val = t.val * 2000 + p.val) :
    (iblk1 V c 0 t : S2000x128.Idx → EReal) (ix2 p k) = (V c main_v32 : S100000x128.Idx → EReal) (ix2 p' k) := by
  obtain ⟨e00, e01, -⟩ := idx_facts t
  unfold iblk1
  rw [View.read_apply]
  show (V c main_v32 : S100000x128.Idx → EReal) _ = _
  refine congrArg _ (funext fun a => Fin.ext ?_)
  match a with
  | ⟨0, _⟩ => show win1_0.index t (0 : Fin 2) * 2000 + 1 * p.val = p'.val; rw [e00, h]; omega
  | ⟨1, _⟩ => show win1_0.index t (1 : Fin 2) * 128 + 1 * k.val = k.val; rw [e01]; omega

/-- Window 1's block at point `t`: rows `2000 t …` of the features. -/
theorem rows1 (c : Dev nD) (t : Fin cfg1.N) (p : Fin 2000) (p' : Fin 100000) (k : Fin 128) (h : p'.val = t.val * 2000 + p.val) :
    (iblk1 V c 1 t : S2000x128.Idx → EReal) (ix2 p k) = (V c main_v22 : S100000x128.Idx → EReal) (ix2 p' k) := by
  obtain ⟨-, -, e10, e11, -⟩ := idx_facts t
  unfold iblk1
  rw [View.read_apply]
  show (V c main_v22 : S100000x128.Idx → EReal) _ = _
  refine congrArg _ (funext fun a => Fin.ext ?_)
  match a with
  | ⟨0, _⟩ => show win1_1.index t (0 : Fin 2) * 2000 + 1 * p.val = p'.val; rw [e10, h]; omega
  | ⟨1, _⟩ => show win1_1.index t (1 : Fin 2) * 128 + 1 * k.val = k.val; rw [e11]; omega

/-- Windows 2 to 5 stage their whole arrays at every point. -/
theorem whole2 (c : Dev nD) (t : Fin cfg1.N) : (iblk1 V c 2 t : S128x128.Idx → EReal) = V c main_v34 := by
  obtain ⟨-, -, -, -, e20, e21, -⟩ := idx_facts t
  funext y
  unfold iblk1
  rw [View.read_apply]
  show (V c main_v34 : S128x128.Idx → EReal) _ = _
  refine congrArg _ (funext fun a => Fin.ext ?_)
  match a with
  | ⟨0, _⟩ => show win1_2.index t (0 : Fin 2) * 128 + 1 * (y 0).val = (y 0).val; rw [e20]; omega
  | ⟨1, _⟩ => show win1_2.index t (1 : Fin 2) * 128 + 1 * (y 1).val = (y 1).val; rw [e21]; omega

theorem whole3 (c : Dev nD) (t : Fin cfg1.N) : (iblk1 V c 3 t : S128.Idx → EReal) = V c main_v36 := by
  obtain ⟨-, -, -, -, -, -, e30, -⟩ := idx_facts t
  funext y
  unfold iblk1
  rw [View.read_apply]
  show (V c main_v36 : S128.Idx → EReal) _ = _
  refine congrArg _ (funext fun a => Fin.ext ?_)
  match a with
  | ⟨0, _⟩ => show win1_3.index t (0 : Fin 1) * 128 + 1 * (y 0).val = (y 0).val; rw [e30]; omega

theorem whole4 (c : Dev nD) (t : Fin cfg1.N) : (iblk1 V c 4 t : S128x128.Idx → EReal) = V c main_v38 := by
  obtain ⟨-, -, -, -, -, -, -, e40, e41, -⟩ := idx_facts t
  funext y
  unfold iblk1
  rw [View.read_apply]
  show (V c main_v38 : S128x128.Idx → EReal) _ = _
  refine congrArg _ (funext fun a => Fin.ext ?_)
  match a with
  | ⟨0, _⟩ => show win1_4.index t (0 : Fin 2) * 128 + 1 * (y 0).val = (y 0).val; rw [e40]; omega
  | ⟨1, _⟩ => show win1_4.index t (1 : Fin 2) * 128 + 1 * (y 1).val = (y 1).val; rw [e41]; omega

theorem whole5 (c : Dev nD) (t : Fin cfg1.N) : (iblk1 V c 5 t : S128.Idx → EReal) = V c main_v40 := by
  obtain ⟨-, -, -, -, -, -, -, -, -, e50, -⟩ := idx_facts t
  funext y
  unfold iblk1
  rw [View.read_apply]
  show (V c main_v40 : S128.Idx → EReal) _ = _
  refine congrArg _ (funext fun a => Fin.ext ?_)
  match a with
  | ⟨0, _⟩ => show win1_5.index t (0 : Fin 1) * 128 + 1 * (y 0).val = (y 0).val; rw [e50]; omega

/-- What point `t` writes back is block `t` of the layer of the arrays the region is entered with. -/
theorem flushed_eq (c : Dev nD) (t : Fin cfg1.N) :
    (dat1 V c).flushed 6 t = ((cfg1.win 6).blk t).view.read (Elt Ideal)
      (Gin.ginLayer (V c main_v32) (V c main_v22) (V c main_v34) (V c main_v36) (V c main_v38) (V c main_v40)) := by
  show (cfg1.win 6).cut (grid1.coords t) ((dat1 V c).after 6 t) = _
  rw [after1_6]
  obtain ⟨-, -, -, -, -, -, -, -, -, -, e60, e61⟩ := idx_facts t
  funext j
  rw [View.read_apply]
  show out1_6 (F := Ideal) (iblk1 V c 0 t) (iblk1 V c 1 t) (iblk1 V c 2 t) (iblk1 V c 3 t) (iblk1 V c 4 t) (iblk1 V c 5 t) j = _
  rw [Body.out1, whole2 V c t, whole3 V c t, whole4 V c t, whole5 V c t]
  refine layer_block _ _ _ _ _ _ _ _ t.val (rows0 V c t) (rows1 V c t) j _ ?_ ?_
  · show win1_6.index t (0 : Fin 2) * 2000 + 1 * (j 0).val = t.val * 2000 + (j 0).val; rw [e60]; omega
  · show win1_6.index t (1 : Fin 2) * 128 + 1 * (j 1).val = (j 1).val; rw [e61]; omega

/-- An index of the result array is in point `t`'s block iff its row is among the block's 2000 rows. -/
theorem mem_blk (t : Fin cfg1.N) (i : S100000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v41).slice (win1_6.rect t)).set ↔ _
  rw [View.set_slice_whole, Rect.mem_set_unit]
  exact Iff.rfl

/-- The result array after the region: the layer of the arrays the region is entered with. -/
theorem final (c : Dev nD) : (dat1 V c).arrAt 6 cfg1.N
    = Gin.ginLayer (V c main_v32) (V c main_v22) (V c main_v34) (V c main_v36) (V c main_v38) (V c main_v40) :=
  (dat1 V c).arrAt_eq_of_cover 6 _ (fun t _ => flushed_eq V c t) fun i => by
    have hi0 : (i 0).val < 100000 := (i 0).isLt
    have hi1 : (i 1).val < 128 := (i 1).isLt
    refine ⟨⟨(i 0).val / 2000, by show _ < 50; omega⟩, flush1_6 _, ?_⟩
    rw [mem_blk]
    obtain ⟨-, -, -, -, -, -, -, -, -, -, e60, e61⟩ := idx_facts ⟨(i 0).val / 2000, by show _ < 50; omega⟩
    intro a
    match a with
    | ⟨0, _⟩ => show win1_6.index _ (0 : Fin 2) * 2000 ≤ (i 0).val ∧ (i 0).val < win1_6.index _ (0 : Fin 2) * 2000 + 2000; rw [e60]; show (i 0).val / 2000 * 2000 ≤ _ ∧ _ < (i 0).val / 2000 * 2000 + 2000; omega
    | ⟨1, _⟩ => show win1_6.index _ (1 : Fin 2) * 128 ≤ (i 1).val ∧ (i 1).val < win1_6.index _ (1 : Fin 2) * 128 + 128; rw [e61]; omega

end Cert.KernelIdeal.Region1

end
-- ==== Proof.KRegion2.lean ====
/-
  The third layer's pallas_call as one function of the arrays it is entered with: grid point `t` stages rows
  `2000 t … 2000 t + 1999` of the neighbour sums and of the features together with the whole weight matrices and
  bias vectors, and writes the same rows of the result. A row of the layer depends on that row of its two row
  operands only, so each written block is the block of the layer of the WHOLE arrays, and the fifty blocks tile the
  result array.
-/
import proofs.«125752_j1005022347909_1_alg».proof.Proof.Gen.KernelIdeal.Frame
import proofs.«125752_j1005022347909_1_alg».proof.Proof.KBody
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

/-- A block of 2000 rows of the layer, computed from the same rows of the two row operands, is those rows of the
    layer of the whole arrays. -/
theorem layer_block (A X : S100000x128.Idx → EReal) (W1 : S128x128.Idx → EReal) (b1 : S128.Idx → EReal)
    (W2 : S128x128.Idx → EReal) (b2 : S128.Idx → EReal) (xa xx : S2000x128.Idx → EReal) (tv : Nat)
    (hA : ∀ (p : Fin 2000) (p' : Fin 100000) (k : Fin 128), p'.val = tv * 2000 + p.val → xa (ix2 p k) = A (ix2 p' k))
    (hX : ∀ (p : Fin 2000) (p' : Fin 100000) (k : Fin 128), p'.val = tv * 2000 + p.val → xx (ix2 p k) = X (ix2 p' k))
    (j : S2000x128.Idx) (i : S100000x128.Idx) (hi0 : (i 0).val = tv * 2000 + (j 0).val) (hi1 : (i 1).val = (j 1).val) :
    Gin.ginLayer xa xx W1 b1 W2 b2 j = Gin.ginLayer A X W1 b1 W2 b2 i := by
  obtain ⟨p, q, rfl⟩ : ∃ (p : Fin 2000) (q : Fin 128), j = ix2 p q := ⟨j 0, j 1, eq_ix2 j⟩
  obtain ⟨p', q', rfl⟩ : ∃ (p' : Fin 100000) (q' : Fin 128), i = ix2 p' q' := ⟨i 0, i 1, eq_ix2 i⟩
  obtain rfl : q' = q := Fin.ext hi1
  exact Gin.ginLayer_rows xa xx A X W1 b1 W2 b2 p p' q' (fun k => hA p p' k hi0) (fun k => hX p p' k hi0)

variable (V : (c : Dev nD) → (b : Ref sig .tc) → Buf (Elt Ideal) ((c : Thread nD τ).loc b))

/-- The printed index maps over the grid: the row windows take block `t` of the rows at point `t`, the weight and
    bias windows their one block. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- Window 0's block at point `t`: rows `2000 t …` of the neighbour sums. -/
theorem rows0 (c : Dev nD) (t : Fin cfg2.N) (p : Fin 2000) (p' : Fin 100000) (k : Fin 128) (h : p'.val = t.val * 2000 + p.val) :
    (iblk2 V c 0 t : S2000x128.Idx → EReal) (ix2 p k) = (V c main_v51 : S100000x128.Idx → EReal) (ix2 p' k) := by
  obtain ⟨e00, e01, -⟩ := idx_facts t
  unfold iblk2
  rw [View.read_apply]
  show (V c main_v51 : S100000x128.Idx → EReal) _ = _
  refine congrArg _ (funext fun a => Fin.ext ?_)
  match a with
  | ⟨0, _⟩ => show win2_0.index t (0 : Fin 2) * 2000 + 1 * p.val = p'.val; rw [e00, h]; omega
  | ⟨1, _⟩ => show win2_0.index t (1 : Fin 2) * 128 + 1 * k.val = k.val; rw [e01]; omega

/-- Window 1's block at point `t`: rows `2000 t …` of the features. -/
theorem rows1 (c : Dev nD) (t : Fin cfg2.N) (p : Fin 2000) (p' : Fin 100000) (k : Fin 128) (h : p'.val = t.val * 2000 + p.val) :
    (iblk2 V c 1 t : S2000x128.Idx → EReal) (ix2 p k) = (V c main_v41 : S100000x128.Idx → EReal) (ix2 p' k) := by
  obtain ⟨-, -, e10, e11, -⟩ := idx_facts t
  unfold iblk2
  rw [View.read_apply]
  show (V c main_v41 : S100000x128.Idx → EReal) _ = _
  refine congrArg _ (funext fun a => Fin.ext ?_)
  match a with
  | ⟨0, _⟩ => show win2_1.index t (0 : Fin 2) * 2000 + 1 * p.val = p'.val; rw [e10, h]; omega
  | ⟨1, _⟩ => show win2_1.index t (1 : Fin 2) * 128 + 1 * k.val = k.val; rw [e11]; omega

/-- Windows 2 to 5 stage their whole arrays at every point. -/
theorem whole2 (c : Dev nD) (t : Fin cfg2.N) : (iblk2 V c 2 t : S128x128.Idx → EReal) = V c main_v53 := by
  obtain ⟨-, -, -, -, e20, e21, -⟩ := idx_facts t
  funext y
  unfold iblk2
  rw [View.read_apply]
  show (V c main_v53 : S128x128.Idx → EReal) _ = _
  refine congrArg _ (funext fun a => Fin.ext ?_)
  match a with
  | ⟨0, _⟩ => show win2_2.index t (0 : Fin 2) * 128 + 1 * (y 0).val = (y 0).val; rw [e20]; omega
  | ⟨1, _⟩ => show win2_2.index t (1 : Fin 2) * 128 + 1 * (y 1).val = (y 1).val; rw [e21]; omega

theorem whole3 (c : Dev nD) (t : Fin cfg2.N) : (iblk2 V c 3 t : S128.Idx → EReal) = V c main_v55 := by
  obtain ⟨-, -, -, -, -, -, e30, -⟩ := idx_facts t
  funext y
  unfold iblk2
  rw [View.read_apply]
  show (V c main_v55 : S128.Idx → EReal) _ = _
  refine congrArg _ (funext fun a => Fin.ext ?_)
  match a with
  | ⟨0, _⟩ => show win2_3.index t (0 : Fin 1) * 128 + 1 * (y 0).val = (y 0).val; rw [e30]; omega

theorem whole4 (c : Dev nD) (t : Fin cfg2.N) : (iblk2 V c 4 t : S128x128.Idx → EReal) = V c main_v57 := by
  obtain ⟨-, -, -, -, -, -, -, e40, e41, -⟩ := idx_facts t
  funext y
  unfold iblk2
  rw [View.read_apply]
  show (V c main_v57 : S128x128.Idx → EReal) _ = _
  refine congrArg _ (funext fun a => Fin.ext ?_)
  match a with
  | ⟨0, _⟩ => show win2_4.index t (0 : Fin 2) * 128 + 1 * (y 0).val = (y 0).val; rw [e40]; omega
  | ⟨1, _⟩ => show win2_4.index t (1 : Fin 2) * 128 + 1 * (y 1).val = (y 1).val; rw [e41]; omega

theorem whole5 (c : Dev nD) (t : Fin cfg2.N) : (iblk2 V c 5 t : S128.Idx → EReal) = V c main_v59 := by
  obtain ⟨-, -, -, -, -, -, -, -, -, e50, -⟩ := idx_facts t
  funext y
  unfold iblk2
  rw [View.read_apply]
  show (V c main_v59 : S128.Idx → EReal) _ = _
  refine congrArg _ (funext fun a => Fin.ext ?_)
  match a with
  | ⟨0, _⟩ => show win2_5.index t (0 : Fin 1) * 128 + 1 * (y 0).val = (y 0).val; rw [e50]; omega

/-- What point `t` writes back is block `t` of the layer of the arrays the region is entered with. -/
theorem flushed_eq (c : Dev nD) (t : Fin cfg2.N) :
    (dat2 V c).flushed 6 t = ((cfg2.win 6).blk t).view.read (Elt Ideal)
      (Gin.ginLayer (V c main_v51) (V c main_v41) (V c main_v53) (V c main_v55) (V c main_v57) (V c main_v59)) := by
  show (cfg2.win 6).cut (grid2.coords t) ((dat2 V c).after 6 t) = _
  rw [after2_6]
  obtain ⟨-, -, -, -, -, -, -, -, -, -, e60, e61⟩ := idx_facts t
  funext j
  rw [View.read_apply]
  show out2_6 (F := Ideal) (iblk2 V c 0 t) (iblk2 V c 1 t) (iblk2 V c 2 t) (iblk2 V c 3 t) (iblk2 V c 4 t) (iblk2 V c 5 t) j = _
  rw [Body.out2, whole2 V c t, whole3 V c t, whole4 V c t, whole5 V c t]
  refine layer_block _ _ _ _ _ _ _ _ t.val (rows0 V c t) (rows1 V c t) j _ ?_ ?_
  · show win2_6.index t (0 : Fin 2) * 2000 + 1 * (j 0).val = t.val * 2000 + (j 0).val; rw [e60]; omega
  · show win2_6.index t (1 : Fin 2) * 128 + 1 * (j 1).val = (j 1).val; rw [e61]; omega

/-- An index of the result array is in point `t`'s block iff its row is among the block's 2000 rows. -/
theorem mem_blk (t : Fin cfg2.N) (i : S100000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v60).slice (win2_6.rect t)).set ↔ _
  rw [View.set_slice_whole, Rect.mem_set_unit]
  exact Iff.rfl

/-- The result array after the region: the layer of the arrays the region is entered with. -/
theorem final (c : Dev nD) : (dat2 V c).arrAt 6 cfg2.N
    = Gin.ginLayer (V c main_v51) (V c main_v41) (V c main_v53) (V c main_v55) (V c main_v57) (V c main_v59) :=
  (dat2 V c).arrAt_eq_of_cover 6 _ (fun t _ => flushed_eq V c t) fun i => by
    have hi0 : (i 0).val < 100000 := (i 0).isLt
    have hi1 : (i 1).val < 128 := (i 1).isLt
    refine ⟨⟨(i 0).val / 2000, by show _ < 50; omega⟩, flush2_6 _, ?_⟩
    rw [mem_blk]
    obtain ⟨-, -, -, -, -, -, -, -, -, -, e60, e61⟩ := idx_facts ⟨(i 0).val / 2000, by show _ < 50; omega⟩
    intro a
    match a with
    | ⟨0, _⟩ => show win2_6.index _ (0 : Fin 2) * 2000 ≤ (i 0).val ∧ (i 0).val < win2_6.index _ (0 : Fin 2) * 2000 + 2000; rw [e60]; show (i 0).val / 2000 * 2000 ≤ _ ∧ _ < (i 0).val / 2000 * 2000 + 2000; omega
    | ⟨1, _⟩ => show win2_6.index _ (1 : Fin 2) * 128 ≤ (i 1).val ∧ (i 1).val < win2_6.index _ (1 : Fin 2) * 128 + 128; rw [e61]; omega

end Cert.KernelIdeal.Region2

end
-- ==== Proof.KRegion3.lean ====
/-
  The projection's pallas_call as one function of the arrays it is entered with: grid point `t` stages rows
  `2000 t … 2000 t + 1999` of the features with the whole projection matrix and bias, and writes the same rows of
  the `100000 × 40` result. A row of `L · W + b` depends on that row of `L` only, so each written block is the block of
  the projection of the WHOLE feature array, and the fifty blocks tile the result.
-/
import proofs.«125752_j1005022347909_1_alg».proof.Proof.Gen.KernelIdeal.Frame
import proofs.«125752_j1005022347909_1_alg».proof.Proof.KBody
import Idealize.ShloMosaic.Lib.Pipeline.Value

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat)

/-- A block of 2000 rows of the projection, computed from the same rows of the features, is those rows of the
    projection of the whole feature array. -/
theorem proj_block (X : S100000x128.Idx → EReal) (W : S128x40.Idx → EReal) (b : S40.Idx → EReal)
    (xx : S2000x128.Idx → EReal) (tv : Nat)
    (hX : ∀ (p : Fin 2000) (p' : Fin 100000) (k : Fin 128), p'.val = tv * 2000 + p.val → xx (ix2 p k) = X (ix2 p' k))
    (j : S2000x40.Idx) (i : S100000x40.Idx) (hi0 : (i 0).val = tv * 2000 + (j 0).val) (hi1 : (i 1).val = (j 1).val) :
    Gin.affine xx W b j = Gin.affine X W b i := by
  obtain ⟨p, q, rfl⟩ : ∃ (p : Fin 2000) (q : Fin 40), j = ix2 p q := ⟨j 0, j 1, eq_ix2 j⟩
  obtain ⟨p', q', rfl⟩ : ∃ (p' : Fin 100000) (q' : Fin 40), i = ix2 p' q' := ⟨i 0, i 1, eq_ix2 i⟩
  obtain rfl : q' = q := Fin.ext hi1
  exact Gin.affine_rows xx X W b p p' q' (fun k => hX p p' k hi0)

variable (V : (c : Dev nD) → (b : Ref sig .tc) → Buf (Elt Ideal) ((c : Thread nD τ).loc b))

/-- The printed index maps over the grid: the row windows take block `t` of the rows at point `t`, the matrix and
    bias windows their one block. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- Window 0's block at point `t`: rows `2000 t …` of the features. -/
theorem rows0 (c : Dev nD) (t : Fin cfg3.N) (p : Fin 2000) (p' : Fin 100000) (k : Fin 128) (h : p'.val = t.val * 2000 + p.val) :
    (iblk3 V c 0 t : S2000x128.Idx → EReal) (ix2 p k) = (V c main_v60 : S100000x128.Idx → EReal) (ix2 p' k) := by
  obtain ⟨e00, e01, -⟩ := idx_facts t
  unfold iblk3
  rw [View.read_apply]
  show (V c main_v60 : S100000x128.Idx → EReal) _ = _
  refine congrArg _ (funext fun a => Fin.ext ?_)
  match a with
  | ⟨0, _⟩ => show win3_0.index t (0 : Fin 2) * 2000 + 1 * p.val = p'.val; rw [e00, h]; omega
  | ⟨1, _⟩ => show win3_0.index t (1 : Fin 2) * 128 + 1 * k.val = k.val; rw [e01]; omega

/-- Windows 1 and 2 stage their whole arrays at every point. -/
theorem whole1 (c : Dev nD) (t : Fin cfg3.N) : (iblk3 V c 1 t : S128x40.Idx → EReal) = V c main_arg6 := by
  obtain ⟨-, -, e10, e11, -⟩ := idx_facts t
  funext y
  unfold iblk3
  rw [View.read_apply]
  show (V c main_arg6 : S128x40.Idx → EReal) _ = _
  refine congrArg _ (funext fun a => Fin.ext ?_)
  match a with
  | ⟨0, _⟩ => show win3_1.index t (0 : Fin 2) * 128 + 1 * (y 0).val = (y 0).val; rw [e10]; omega
  | ⟨1, _⟩ => show win3_1.index t (1 : Fin 2) * 40 + 1 * (y 1).val = (y 1).val; rw [e11]; omega

theorem whole2 (c : Dev nD) (t : Fin cfg3.N) : (iblk3 V c 2 t : S40.Idx → EReal) = V c main_arg7 := by
  obtain ⟨-, -, -, -, e20, -⟩ := idx_facts t
  funext y
  unfold iblk3
  rw [View.read_apply]
  show (V c main_arg7 : S40.Idx → EReal) _ = _
  refine congrArg _ (funext fun a => Fin.ext ?_)
  match a with
  | ⟨0, _⟩ => show win3_2.index t (0 : Fin 1) * 40 + 1 * (y 0).val = (y 0).val; rw [e20]; omega

/-- What point `t` writes back is block `t` of the projection of the arrays the region is entered with. -/
theorem flushed_eq (c : Dev nD) (t : Fin cfg3.N) :
    (dat3 V c).flushed 3 t = ((cfg3.win 3).blk t).view.read (Elt Ideal)
      (Gin.affine (V c main_v60) (V c main_arg6) (V c main_arg7)) := by
  show (cfg3.win 3).cut (grid3.coords t) ((dat3 V c).after 3 t) = _
  rw [after3_3]
  obtain ⟨-, -, -, -, -, e30, e31⟩ := idx_facts t
  funext j
  rw [View.read_apply]
  show out3_3 (F := Ideal) (iblk3 V c 0 t) (iblk3 V c 1 t) (iblk3 V c 2 t) j = _
  rw [Body.out3, whole1 V c t, whole2 V c t]
  refine proj_block _ _ _ _ t.val (rows0 V c t) j _ ?_ ?_
  · show win3_3.index t (0 : Fin 2) * 2000 + 1 * (j 0).val = t.val * 2000 + (j 0).val; rw [e30]; omega
  · show win3_3.index t (1 : Fin 2) * 40 + 1 * (j 1).val = (j 1).val; rw [e31]; omega

/-- An index of the result array is in point `t`'s block iff its row is among the block's 2000 rows. -/
theorem mem_blk (t : Fin cfg3.N) (i : S100000x40.Idx) :
    i ∈ ((cfg3.win 3).blk t).view.set ↔ ∀ a : Fin 2, win3_3.index t a * S2000x40.size a ≤ (i a).val ∧ (i a).val < win3_3.index t a * S2000x40.size a + S2000x40.size a := by
  show i ∈ ((View.whole main_v61).slice (win3_3.rect t)).set ↔ _
  rw [View.set_slice_whole, Rect.mem_set_unit]
  exact Iff.rfl

/-- The result array after the region: the projection of the arrays the region is entered with. -/
theorem final (c : Dev nD) : (dat3 V c).arrAt 3 cfg3.N = Gin.affine (V c main_v60) (V c main_arg6) (V c main_arg7) :=
  (dat3 V c).arrAt_eq_of_cover 3 _ (fun t _ => flushed_eq V c t) fun i => by
    have hi0 : (i 0).val < 100000 := (i 0).isLt
    have hi1 : (i 1).val < 40 := (i 1).isLt
    refine ⟨⟨(i 0).val / 2000, by show _ < 50; omega⟩, flush3_3 _, ?_⟩
    rw [mem_blk]
    obtain ⟨-, -, -, -, -, e30, e31⟩ := idx_facts ⟨(i 0).val / 2000, by show _ < 50; omega⟩
    intro a
    match a with
    | ⟨0, _⟩ => show win3_3.index _ (0 : Fin 2) * 2000 ≤ (i 0).val ∧ (i 0).val < win3_3.index _ (0 : Fin 2) * 2000 + 2000; rw [e30]; show (i 0).val / 2000 * 2000 ≤ _ ∧ _ < (i 0).val / 2000 * 2000 + 2000; omega
    | ⟨1, _⟩ => show win3_3.index _ (1 : Fin 2) * 40 ≤ (i 1).val ∧ (i 1).val < win3_3.index _ (1 : Fin 2) * 40 + 40; rw [e31]; omega

end Cert.KernelIdeal.Region3

end
-- ==== Proof.KChain.lean ====
/-
  The kernel program's result as the network of its arguments, boundary by boundary: the contents of every buffer
  the next item reads, after each stretch of host operations and after each pallas_call. A stretch is read through
  its lemmas at an arbitrary valuation; a pallas_call's result array is the layer (or the projection) of the arrays
  the call is entered with; a buffer nothing in between writes keeps its contents.
-/
import proofs.«125752_j1005022347909_1_alg».proof.Proof.Gen.KernelIdeal.Frame
import proofs.«125752_j1005022347909_1_alg».proof.Proof.KDefs
import proofs.«125752_j1005022347909_1_alg».proof.Proof.KStretch
import proofs.«125752_j1005022347909_1_alg».proof.Proof.KRegion0
import proofs.«125752_j1005022347909_1_alg».proof.Proof.KRegion1
import proofs.«125752_j1005022347909_1_alg».proof.Proof.KRegion2
import proofs.«125752_j1005022347909_1_alg».proof.Proof.KRegion3

set_option maxRecDepth 16384

noncomputable section

namespace Cert.KernelIdeal.Chain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- The eight arguments as launched on core `c`. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)

/-! ## After the first stretch -/

theorem l1_v1 : W1 m ρ c (Proc.devRef .tc main_v1) = Net.srcRow (a1 m c) := Stretch.s0_v1 (W0 m ρ c)
theorem l1_v3 : W1 m ρ c (Proc.devRef .tc main_v3) = Net.dstRow (a1 m c) := Stretch.s0_v3 (W0 m ρ c)
theorem l1_v13 : W1 m ρ c (Proc.devRef .tc main_v13) = Net.agg (a1 m c) (a0 m c) := Stretch.s0_v13 (W0 m ρ c)
theorem l1_v15 : W1 m ρ c (Proc.devRef .tc main_v15) = Net.mat0 (a2 m c) := Stretch.s0_v15 (W0 m ρ c)
theorem l1_v17 : W1 m ρ c (Proc.devRef .tc main_v17) = Net.vec0 (a3 m c) := Stretch.s0_v17 (W0 m ρ c)
theorem l1_v19 : W1 m ρ c (Proc.devRef .tc main_v19) = Net.mat0 (a4 m c) := Stretch.s0_v19 (W0 m ρ c)
theorem l1_v21 : W1 m ρ c (Proc.devRef .tc main_v21) = Net.vec0 (a5 m c) := Stretch.s0_v21 (W0 m ρ c)
theorem l1_arg0 : W1 m ρ c (Proc.devRef .tc main_arg0) = a0 m c := Stretch.s0_arg0 (W0 m ρ c)
theorem l1_arg2 : W1 m ρ c (Proc.devRef .tc main_arg2) = a2 m c := Stretch.s0_arg2 (W0 m ρ c)
theorem l1_arg3 : W1 m ρ c (Proc.devRef .tc main_arg3) = a3 m c := Stretch.s0_arg3 (W0 m ρ c)
theorem l1_arg4 : W1 m ρ c (Proc.devRef .tc main_arg4) = a4 m c := Stretch.s0_arg4 (W0 m ρ c)
theorem l1_arg5 : W1 m ρ c (Proc.devRef .tc main_arg5) = a5 m c := Stretch.s0_arg5 (W0 m ρ c)
theorem l1_arg6 : W1 m ρ c (Proc.devRef .tc main_arg6) = a6 m c := Stretch.s0_arg6 (W0 m ρ c)
theorem l1_arg7 : W1 m ρ c (Proc.devRef .tc main_arg7) = a7 m c := Stretch.s0_arg7 (W0 m ρ c)

/-! ## After the first pallas_call -/

/-- The first layer's result array. -/
theorem l2_v22 : W2 m ρ c (Proc.devRef .tc main_v22) = Net.feat1 (a0 m c) (a1 m c) (a2 m c) (a3 m c) (a4 m c) (a5 m c) := by
  refine (W2_arr m ρ c 6).trans ((Region0.final (V1 m ρ) c).trans ?_)
  show Gin.ginLayer (W1 m ρ c (Proc.devRef .tc main_v13)) (W1 m ρ c (Proc.devRef .tc main_arg0))
    (W1 m ρ c (Proc.devRef .tc main_v15)) (W1 m ρ c (Proc.devRef .tc main_v17))
    (W1 m ρ c (Proc.devRef .tc main_v19)) (W1 m ρ c (Proc.devRef .tc main_v21)) = _
  rw [l1_v13, l1_arg0, l1_v15, l1_v17, l1_v19, l1_v21]
  rfl

theorem l2_v1 : W2 m ρ c (Proc.devRef .tc main_v1) = Net.srcRow (a1 m c) := (W2_of_ne m ρ c main_v1 (by decide)).trans (l1_v1 m ρ c)
theorem l2_v3 : W2 m ρ c (Proc.devRef .tc main_v3) = Net.dstRow (a1 m c) := (W2_of_ne m ρ c main_v3 (by decide)).trans (l1_v3 m ρ c)
theorem l2_arg2 : W2 m ρ c (Proc.devRef .tc main_arg2) = a2 m c := (W2_of_ne m ρ c main_arg2 (by decide)).trans (l1_arg2 m ρ c)
theorem l2_arg3 : W2 m ρ c (Proc.devRef .tc main_arg3) = a3 m c := (W2_of_ne m ρ c main_arg3 (by decide)).trans (l1_arg3 m ρ c)
theorem l2_arg4 : W2 m ρ c (Proc.devRef .tc main_arg4) = a4 m c := (W2_of_ne m ρ c main_arg4 (by decide)).trans (l1_arg4 m ρ c)
theorem l2_arg5 : W2 m ρ c (Proc.devRef .tc main_arg5) = a5 m c := (W2_of_ne m ρ c main_arg5 (by decide)).trans (l1_arg5 m ρ c)
theorem l2_arg6 : W2 m ρ c (Proc.devRef .tc main_arg6) = a6 m c := (W2_of_ne m ρ c main_arg6 (by decide)).trans (l1_arg6 m ρ c)
theorem l2_arg7 : W2 m ρ c (Proc.devRef .tc main_arg7) = a7 m c := (W2_of_ne m ρ c main_arg7 (by decide)).trans (l1_arg7 m ρ c)

/-! ## After the second stretch -/

theorem l3_v32 : W3 m ρ c (Proc.devRef .tc main_v32)
    = Net.agg (a1 m c) (Net.feat1 (a0 m c) (a1 m c) (a2 m c) (a3 m c) (a4 m c) (a5 m c)) := by
  refine (Stretch.s1_v32 (W2 m ρ c)).trans ?_
  rw [l2_v1, l2_v3, l2_v22]
  rfl
theorem l3_v22 : W3 m ρ c (Proc.devRef .tc main_v22) = Net.feat1 (a0 m c) (a1 m c) (a2 m c) (a3 m c) (a4 m c) (a5 m c) :=
  (Stretch.s1_v22 (W2 m ρ c)).trans (l2_v22 m ρ c)
theorem l3_v34 : W3 m ρ c (Proc.devRef .tc main_v34) = Net.mat1 (a2 m c) := (Stretch.s1_v34 (W2 m ρ c)).trans (congrArg Net.mat1 (l2_arg2 m ρ c))
theorem l3_v36 : W3 m ρ c (Proc.devRef .tc main_v36) = Net.vec1 (a3 m c) := (Stretch.s1_v36 (W2 m ρ c)).trans (congrArg Net.vec1 (l2_arg3 m ρ c))
theorem l3_v38 : W3 m ρ c (Proc.devRef .tc main_v38) = Net.mat1 (a4 m c) := (Stretch.s1_v38 (W2 m ρ c)).trans (congrArg Net.mat1 (l2_arg4 m ρ c))
theorem l3_v40 : W3 m ρ c (Proc.devRef .tc main_v40) = Net.vec1 (a5 m c) := (Stretch.s1_v40 (W2 m ρ c)).trans (congrArg Net.vec1 (l2_arg5 m ρ c))
theorem l3_v1 : W3 m ρ c (Proc.devRef .tc main_v1) = Net.srcRow (a1 m c) := (Stretch.s1_v1 (W2 m ρ c)).trans (l2_v1 m ρ c)
theorem l3_v3 : W3 m ρ c (Proc.devRef .tc main_v3) = Net.dstRow (a1 m c) := (Stretch.s1_v3 (W2 m ρ c)).trans (l2_v3 m ρ c)
theorem l3_arg2 : W3 m ρ c (Proc.devRef .tc main_arg2) = a2 m c := (Stretch.s1_arg2 (W2 m ρ c)).trans (l2_arg2 m ρ c)
theorem l3_arg3 : W3 m ρ c (Proc.devRef .tc main_arg3) = a3 m c := (Stretch.s1_arg3 (W2 m ρ c)).trans (l2_arg3 m ρ c)
theorem l3_arg4 : W3 m ρ c (Proc.devRef .tc main_arg4) = a4 m c := (Stretch.s1_arg4 (W2 m ρ c)).trans (l2_arg4 m ρ c)
theorem l3_arg5 : W3 m ρ c (Proc.devRef .tc main_arg5) = a5 m c := (Stretch.s1_arg5 (W2 m ρ c)).trans (l2_arg5 m ρ c)
theorem l3_arg6 : W3 m ρ c (Proc.devRef .tc main_arg6) = a6 m c := (Stretch.s1_arg6 (W2 m ρ c)).trans (l2_arg6 m ρ c)
theorem l3_arg7 : W3 m ρ c (Proc.devRef .tc main_arg7) = a7 m c := (Stretch.s1_arg7 (W2 m ρ c)).trans (l2_arg7 m ρ c)

/-! ## After the second pallas_call -/

/-- The second layer's result array. -/
theorem l4_v41 : W4 m ρ c (Proc.devRef .tc main_v41) = Net.feat2 (a0 m c) (a1 m c) (a2 m c) (a3 m c) (a4 m c) (a5 m c) := by
  refine (W4_arr m ρ c 6).trans ((Region1.final (V3 m ρ) c).trans ?_)
  show Gin.ginLayer (W3 m ρ c (Proc.devRef .tc main_v32)) (W3 m ρ c (Proc.devRef .tc main_v22))
    (W3 m ρ c (Proc.devRef .tc main_v34)) (W3 m ρ c (Proc.devRef .tc main_v36))
    (W3 m ρ c (Proc.devRef .tc main_v38)) (W3 m ρ c (Proc.devRef .tc main_v40)) = _
  rw [l3_v32, l3_v22, l3_v34, l3_v36, l3_v38, l3_v40]
  rfl

theorem l4_v1 : W4 m ρ c (Proc.devRef .tc main_v1) = Net.srcRow (a1 m c) := (W4_of_ne m ρ c main_v1 (by decide)).trans (l3_v1 m ρ c)
theorem l4_v3 : W4 m ρ c (Proc.devRef .tc main_v3) = Net.dstRow (a1 m c) := (W4_of_ne m ρ c main_v3 (by decide)).trans (l3_v3 m ρ c)
theorem l4_arg2 : W4 m ρ c (Proc.devRef .tc main_arg2) = a2 m c := (W4_of_ne m ρ c main_arg2 (by decide)).trans (l3_arg2 m ρ c)
theorem l4_arg3 : W4 m ρ c (Proc.devRef .tc main_arg3) = a3 m c := (W4_of_ne m ρ c main_arg3 (by decide)).trans (l3_arg3 m ρ c)
theorem l4_arg4 : W4 m ρ c (Proc.devRef .tc main_arg4) = a4 m c := (W4_of_ne m ρ c main_arg4 (by decide)).trans (l3_arg4 m ρ c)
theorem l4_arg5 : W4 m ρ c (Proc.devRef .tc main_arg5) = a5 m c := (W4_of_ne m ρ c main_arg5 (by decide)).trans (l3_arg5 m ρ c)
theorem l4_arg6 : W4 m ρ c (Proc.devRef .tc main_arg6) = a6 m c := (W4_of_ne m ρ c main_arg6 (by decide)).trans (l3_arg6 m ρ c)
theorem l4_arg7 : W4 m ρ c (Proc.devRef .tc main_arg7) = a7 m c := (W4_of_ne m ρ c main_arg7 (by decide)).trans (l3_arg7 m ρ c)

/-! ## After the third stretch -/

theorem l5_v51 : W5 m ρ c (Proc.devRef .tc main_v51)
    = Net.agg (a1 m c) (Net.feat2 (a0 m c) (a1 m c) (a2 m c) (a3 m c) (a4 m c) (a5 m c)) := by
  refine (Stretch.s2_v51 (W4 m ρ c)).trans ?_
  rw [l4_v1, l4_v3, l4_v41]
  rfl
theorem l5_v41 : W5 m ρ c (Proc.devRef .tc main_v41) = Net.feat2 (a0 m c) (a1 m c) (a2 m c) (a3 m c) (a4 m c) (a5 m c) :=
  (Stretch.s2_v41 (W4 m ρ c)).trans (l4_v41 m ρ c)
theorem l5_v53 : W5 m ρ c (Proc.devRef .tc main_v53) = Net.mat2 (a2 m c) := (Stretch.s2_v53 (W4 m ρ c)).trans (congrArg Net.mat2 (l4_arg2 m ρ c))
theorem l5_v55 : W5 m ρ c (Proc.devRef .tc main_v55) = Net.vec2 (a3 m c) := (Stretch.s2_v55 (W4 m ρ c)).trans (congrArg Net.vec2 (l4_arg3 m ρ c))
theorem l5_v57 : W5 m ρ c (Proc.devRef .tc main_v57) = Net.mat2 (a4 m c) := (Stretch.s2_v57 (W4 m ρ c)).trans (congrArg Net.mat2 (l4_arg4 m ρ c))
theorem l5_v59 : W5 m ρ c (Proc.devRef .tc main_v59) = Net.vec2 (a5 m c) := (Stretch.s2_v59 (W4 m ρ c)).trans (congrArg Net.vec2 (l4_arg5 m ρ c))
theorem l5_arg6 : W5 m ρ c (Proc.devRef .tc main_arg6) = a6 m c := (Stretch.s2_arg6 (W4 m ρ c)).trans (l4_arg6 m ρ c)
theorem l5_arg7 : W5 m ρ c (Proc.devRef .tc main_arg7) = a7 m c := (Stretch.s2_arg7 (W4 m ρ c)).trans (l4_arg7 m ρ c)

/-! ## After the third pallas_call -/

/-- The third layer's result array. -/
theorem l6_v60 : W6 m ρ c (Proc.devRef .tc main_v60) = Net.feat3 (a0 m c) (a1 m c) (a2 m c) (a3 m c) (a4 m c) (a5 m c) := by
  refine (W6_arr m ρ c 6).trans ((Region2.final (V5 m ρ) c).trans ?_)
  show Gin.ginLayer (W5 m ρ c (Proc.devRef .tc main_v51)) (W5 m ρ c (Proc.devRef .tc main_v41))
    (W5 m ρ c (Proc.devRef .tc main_v53)) (W5 m ρ c (Proc.devRef .tc main_v55))
    (W5 m ρ c (Proc.devRef .tc main_v57)) (W5 m ρ c (Proc.devRef .tc main_v59)) = _
  rw [l5_v51, l5_v41, l5_v53, l5_v55, l5_v57, l5_v59]
  rfl

theorem l6_arg6 : W6 m ρ c (Proc.devRef .tc main_arg6) = a6 m c := (W6_of_ne m ρ c main_arg6 (by decide)).trans (l5_arg6 m ρ c)
theorem l6_arg7 : W6 m ρ c (Proc.devRef .tc main_arg7) = a7 m c := (W6_of_ne m ρ c main_arg7 (by decide)).trans (l5_arg7 m ρ c)

/-! ## After the last pallas_call -/

/-- The program's result buffer at the last boundary: the network of the eight arguments. -/
theorem result_eq : W7 m ρ c (Proc.devRef .tc main_v61)
    = Net.result (a0 m c) (a1 m c) (a2 m c) (a3 m c) (a4 m c) (a5 m c) (a6 m c) (a7 m c) := by
  refine (W7_arr m ρ c 3).trans ((Region3.final (V6 m ρ) c).trans ?_)
  show Gin.affine (W6 m ρ c (Proc.devRef .tc main_v60)) (W6 m ρ c (Proc.devRef .tc main_arg6))
    (W6 m ρ c (Proc.devRef .tc main_arg7)) = _
  rw [l6_v60, l6_arg6, l6_arg7]
  rfl

end Cert.KernelIdeal.Chain

end
-- ==== Proof.RefValue.lean ====
/-
  The reference program computes the same function of its eight arguments as the network's specification: each
  layer is the neighbour sum, the sum with the features, two products with a bias each and two maxima with zero, all
  whole-array host operations; the last line is one more product with a bias. The neighbour sum and the slices of the
  stacked arguments are the very host operations the kernel's program applies, so they are matched as they stand.
-/
import proofs.«125752_j1005022347909_1_alg».proof.Proof.Gen.ReferenceIdeal.Run
import proofs.«125752_j1005022347909_1_alg».proof.Proof.Gen.ReferenceIdeal.Read
import proofs.«125752_j1005022347909_1_alg».proof.Proof.Gen.KernelIdeal
import proofs.«125752_j1005022347909_1_alg».proof.Proof.KDefs
import proofs.«125752_j1005022347909_1_alg».proof.Proof.Ops

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem
open Cert.KernelIdeal (Net.agg Net.aggOf Net.mat0 Net.mat1 Net.mat2 Net.vec0 Net.vec1 Net.vec2 Net.feat1 Net.feat2 Net.feat3 Net.result)

/-- One layer as the reference writes it, on whole arrays, is the layer. -/
theorem layer_ref (A X : FVec Ideal S100000x128 .f32) (W1 : FVec Ideal S128x128 .f32) (b1 : FVec Ideal S128 .f32)
    (W2 : FVec Ideal S128x128 .f32) (b2 : FVec Ideal S128 .f32) :
    maximumf (F := Ideal)
        (addf (F := Ideal)
          (Host.dotGeneral (F := Ideal) dot_S100000x128_S128x128_S100000x128_1_0_0_1_n_n none
            (maximumf (F := Ideal)
              (addf (F := Ideal) (Host.dotGeneral (F := Ideal) dot_S100000x128_S128x128_S100000x128_1_0_0_1_n_n none (addf (F := Ideal) A X) W1)
                (broadcastInDim S100000x128 ![0, 1] bcast_S1x128_S100000x128_0_1 (broadcastInDim S1x128 ![1] bcast_S128_S1x128_1 b1)))
              (broadcastInDim S100000x128 ![] bcast_S_S100000x128 (constant (F := Ideal) S_ .f32 0x00000000#32)))
            W2)
          (broadcastInDim S100000x128 ![0, 1] bcast_S1x128_S100000x128_0_1 (broadcastInDim S1x128 ![1] bcast_S128_S1x128_1 b2)))
        (broadcastInDim S100000x128 ![] bcast_S_S100000x128 (constant (F := Ideal) S_ .f32 0x00000000#32))
      = Gin.ginLayer A X W1 b1 W2 b2 := by
  unfold Gin.ginLayer
  rw [Gin.host_relu, Gin.host_affine dot_S100000x128_S128x128_S100000x128_1_0_0_1_n_n rfl rfl rfl rfl rfl rfl,
    Gin.host_relu, Gin.host_affine dot_S100000x128_S128x128_S100000x128_1_0_0_1_n_n rfl rfl rfl rfl rfl rfl, Gin.addf_plus]

variable (x0 : (⟨S100000x128, .f32⟩ : BufTy).Contents (Elt Ideal)) (x1 : (⟨S2x1600000, .i32⟩ : BufTy).Contents (Elt Ideal))
  (x2 : (⟨S3x128x128, .f32⟩ : BufTy).Contents (Elt Ideal)) (x3 : (⟨S3x128, .f32⟩ : BufTy).Contents (Elt Ideal))
  (x4 : (⟨S3x128x128, .f32⟩ : BufTy).Contents (Elt Ideal)) (x5 : (⟨S3x128, .f32⟩ : BufTy).Contents (Elt Ideal))
  (x6 : (⟨S128x40, .f32⟩ : BufTy).Contents (Elt Ideal)) (x7 : (⟨S40, .f32⟩ : BufTy).Contents (Elt Ideal))

/-- The reference's first neighbour sum and its slices 0 are the specification's. -/
theorem agg1_eq : val_main_v13 (F := Ideal) x0 x1 = Net.agg x1 x0 := rfl
theorem w1_0_eq : val_main_v16 (F := Ideal) x2 = Net.mat0 x2 := rfl
theorem b1_0_eq : val_main_v19 (F := Ideal) x3 = Net.vec0 x3 := rfl
theorem w2_0_eq : val_main_v25 (F := Ideal) x4 = Net.mat0 x4 := rfl
theorem b2_0_eq : val_main_v28 (F := Ideal) x5 = Net.vec0 x5 := rfl

/-- The reference's features after its first layer. -/
theorem feat1_eq : val_main_v32 (F := Ideal) x0 x1 x2 x3 x4 x5 = Net.feat1 x0 x1 x2 x3 x4 x5 := by
  unfold Net.feat1
  rw [← agg1_eq, ← w1_0_eq, ← b1_0_eq, ← w2_0_eq, ← b2_0_eq]
  exact layer_ref (val_main_v13 (F := Ideal) x0 x1) x0 (val_main_v16 (F := Ideal) x2) (val_main_v19 (F := Ideal) x3)
    (val_main_v25 (F := Ideal) x4) (val_main_v28 (F := Ideal) x5)

/-- The reference's second neighbour sum, over its first layer's features, and its slices 1. -/
theorem agg2_eq : val_main_v42 (F := Ideal) x0 x1 x2 x3 x4 x5 = Net.agg x1 (val_main_v32 (F := Ideal) x0 x1 x2 x3 x4 x5) := rfl
theorem w1_1_eq : val_main_v45 (F := Ideal) x2 = Net.mat1 x2 := rfl
theorem b1_1_eq : val_main_v48 (F := Ideal) x3 = Net.vec1 x3 := rfl
theorem w2_1_eq : val_main_v54 (F := Ideal) x4 = Net.mat1 x4 := rfl
theorem b2_1_eq : val_main_v57 (F := Ideal) x5 = Net.vec1 x5 := rfl

/-- The reference's features after its second layer. -/
theorem feat2_eq : val_main_v61 (F := Ideal) x0 x1 x2 x3 x4 x5 = Net.feat2 x0 x1 x2 x3 x4 x5 := by
  unfold Net.feat2
  rw [← feat1_eq, ← agg2_eq, ← w1_1_eq, ← b1_1_eq, ← w2_1_eq, ← b2_1_eq]
  exact layer_ref (val_main_v42 (F := Ideal) x0 x1 x2 x3 x4 x5) (val_main_v32 (F := Ideal) x0 x1 x2 x3 x4 x5)
    (val_main_v45 (F := Ideal) x2) (val_main_v48 (F := Ideal) x3) (val_main_v54 (F := Ideal) x4) (val_main_v57 (F := Ideal) x5)

/-- The reference's third neighbour sum, over its second layer's features, and its slices 2. -/
theorem agg3_eq : val_main_v71 (F := Ideal) x0 x1 x2 x3 x4 x5 = Net.agg x1 (val_main_v61 (F := Ideal) x0 x1 x2 x3 x4 x5) := rfl
theorem w1_2_eq : val_main_v74 (F := Ideal) x2 = Net.mat2 x2 := rfl
theorem b1_2_eq : val_main_v77 (F := Ideal) x3 = Net.vec2 x3 := rfl
theorem w2_2_eq : val_main_v83 (F := Ideal) x4 = Net.mat2 x4 := rfl
theorem b2_2_eq : val_main_v86 (F := Ideal) x5 = Net.vec2 x5 := rfl

/-- The reference's features after its third layer. -/
theorem feat3_eq : val_main_v90 (F := Ideal) x0 x1 x2 x3 x4 x5 = Net.feat3 x0 x1 x2 x3 x4 x5 := by
  unfold Net.feat3
  rw [← feat2_eq, ← agg3_eq, ← w1_2_eq, ← b1_2_eq, ← w2_2_eq, ← b2_2_eq]
  exact layer_ref (val_main_v71 (F := Ideal) x0 x1 x2 x3 x4 x5) (val_main_v61 (F := Ideal) x0 x1 x2 x3 x4 x5)
    (val_main_v74 (F := Ideal) x2) (val_main_v77 (F := Ideal) x3) (val_main_v83 (F := Ideal) x4) (val_main_v86 (F := Ideal) x5)

/-- The reference's result is the network of its arguments. -/
theorem result_eq : val_main_v94 (F := Ideal) x0 x1 x2 x3 x4 x5 x6 x7 = Net.result x0 x1 x2 x3 x4 x5 x6 x7 := by
  unfold Net.result
  rw [← feat3_eq]
  exact Gin.host_affine dot_S100000x128_S128x40_S100000x40_1_0_0_1_n_n rfl rfl rfl rfl rfl rfl bcast_S40_S1x40_1 bcast_S1x40_S100000x40_0_1
    (val_main_v90 (F := Ideal) x0 x1 x2 x3 x4 x5) x6 x7

/-- The reference run's result term is the network of the launch arguments. -/
theorem res_eq (m : (ℓ : Loc nD τ sig) → Buf (Elt Ideal) ℓ) (c : Dev nD) :
    Cert.ReferenceIdeal.Value.res_main_v94 m c
      = Net.result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) :=
  (val_main_v94_eq m c).trans (result_eq _ _ _ _ _ _ _ _)

end Cert.ReferenceIdeal.RefValue

end
-- ==== Proof.lean ====
/-
  A three-layer graph-isomorphism network with a final projection, as a Pallas program of four pallas_calls among
  host operations, against the same network written with whole-array jnp operations.

  Both programs compute, for each layer, the neighbour sum of the current features along the edge list (a gather of
  the source rows scattered with addition into the destination rows: the same host operations in both programs),
  add the features, multiply by the layer's first weight matrix, add its first bias, clip at zero, multiply by the
  second weight matrix, add the second bias and clip at zero; then they multiply by the projection matrix and add its
  bias. The kernel does each layer fifty blocks of 2000 rows at a time, its matrix products on operands cast to
  half precision; over the extended reals a change of format is the identity, a product from the zero accumulator
  and the host's product are the same sum over the contracted index, and a row of a layer's result depends on that
  row of its row operands only, so the blocks the kernel writes are the blocks of the layer of the whole arrays and
  together they are the whole result. No law of arithmetic beyond that is used, so the inputs' finiteness is not.

  The three frames are the generated ones (the reference's is its generated run with the result dropped); nothing was
  rewritten by the ideal pass, so there is nothing to preserve.
-/
import proofs.«125752_j1005022347909_1_alg».proof.Defs
import proofs.«125752_j1005022347909_1_alg».proof.Proof.Gen.Kernel
import proofs.«125752_j1005022347909_1_alg».proof.Proof.Gen.Kernel.Skeleton
import proofs.«125752_j1005022347909_1_alg».proof.Proof.Gen.Kernel.Launch
import proofs.«125752_j1005022347909_1_alg».proof.Proof.Gen.Kernel.Points
import proofs.«125752_j1005022347909_1_alg».proof.Proof.Gen.Kernel.Frame
import proofs.«125752_j1005022347909_1_alg».proof.Proof.Gen.KernelIdeal
import proofs.«125752_j1005022347909_1_alg».proof.Proof.Gen.KernelIdeal.Skeleton
import proofs.«125752_j1005022347909_1_alg».proof.Proof.Gen.KernelIdeal.Launch
import proofs.«125752_j1005022347909_1_alg».proof.Proof.Gen.KernelIdeal.Points
import proofs.«125752_j1005022347909_1_alg».proof.Proof.Gen.KernelIdeal.Frame
import proofs.«125752_j1005022347909_1_alg».proof.Proof.Gen.ReferenceIdeal
import proofs.«125752_j1005022347909_1_alg».proof.Proof.Gen.ReferenceIdeal.Run
import proofs.«125752_j1005022347909_1_alg».proof.Proof.Gen.Pre_finite_inputs
import proofs.«125752_j1005022347909_1_alg».proof.Proof.KRun
import proofs.«125752_j1005022347909_1_alg».proof.Proof.KChain
import proofs.«125752_j1005022347909_1_alg».proof.Proof.RefValue
import Idealize.ShloMosaic.Adequacy
import Idealize.ShloMosaic.Init

noncomputable section

namespace Cert.Proof

open Idealize.ShloMosaic Idealize.ShloMosaic.TcCoe Idealize.SL.Sem

/-- Run from memories that agree on the arguments, both idealized programs end with the result buffer at the network
    of the arguments: the kernel's by its run through the four pallas_calls, the reference's by its run of host
    operations. -/
theorem algebraic : Cert.algebraic_KernelIdeal_ReferenceIdeal := by
  intro m ρ m' ρ' _ hagree
  refine ⟨fun c => Cert.KernelIdeal.Net.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.result_eq m ρ c), (h c).2⟩)
      (Cert.KernelIdeal.RunResult.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.ReferenceIdeal.RefValue.res_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
